-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512, .f32⟩
  | .local _ .vmem, ⟨1, _⟩ => ⟨S512, .f32⟩
  | .local _ .vmem, ⟨2, _⟩ => ⟨S512, .f32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_9 : BitVec 32 := 0#32
  let v31 : BitVec 1 := Scalar.cmpi .ne v30 c0_i32_9
  v31

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  shapeCasts_S512_S512x1 : S512.ShapeCasts S512x1
  broadcasts_S1x512_S512x512 : S1x512.Broadcasts S512x512
  broadcasts_S512x1_S512x512 : S512x1.Broadcasts S512x512
  reduces_S512x512_S512 : S512x512.Reduces [1] S512
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S8192.size a
  hwx0_0 : ∀ i : grid0.Coords, EltTy.bits .f32 = 32 ∨ (Rect.block (s := S8192) S512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S8192.size a
  hwx0_1 : ∀ i : grid0.Coords, EltTy.bits .f32 = 32 ∨ (Rect.block (s := S8192) S512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S8192.size a
  hwx0_3 : ∀ i : grid0.Coords, EltTy.bits .f32 = 32 ∨ (Rect.block (s := S8192) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S8192.size a
  hwx0_4 : ∀ i : grid0.Coords, EltTy.bits .f32 = 32 ∨ (Rect.block (s := S8192) S512.size (cc0_transform_4 i) (hinb0_4 i)).WholeWords (EltTy.packing .f32)

variable [Facts₀]

abbrev win0_0 : Pipeline.Window sig grid0 :=
  Pipeline.Window.ofSpec (Memref.whole main_arg0) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S1x8192, .f32⟩
  | .hbm, ⟨3, _⟩ => ⟨S8192x1, .f32⟩
  | .hbm, ⟨4, _⟩ => ⟨S8192x8192, .f32⟩
  | .hbm, ⟨5, _⟩ => ⟨S8192x8192, .f32⟩
  | .hbm, ⟨6, _⟩ => ⟨S8192x8192, .i1⟩
  | .hbm, ⟨7, _⟩ => ⟨S1x8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.KernelRuns.lean ====
/-
  What the three runs of the pairwise-hinge kernel body are stated over. The grid is 16 row blocks by 16 column
  blocks, walked row-major: point `t` is row block `t / 16`, column block `t % 16`. The body resets its scratch
  accumulator at the first column block of a row (`t % 16 = 0`), adds the block's row sums to it at every point, and
  copies it into the output block at the last column block (`t % 16 = 15`); at the other points the output window is
  idle and is not written back.
-/
import proofs.«100222_j65532611002859_1_alg».proof.Proof.Gen.Kernel.Launch
import proofs.«100222_j65532611002859_1_alg».proof.Proof.Gen.Kernel.Skeleton
import proofs.«100222_j65532611002859_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array in the launch memory (no host operation runs before the region). -/
def iblk (c : Dev nD) (w : Fin cfg0.W) (t : Fin cfg0.N) : ((cfg0.win w).xblock (cfg0.grid.coords t)).Idx → Elt F (cfg0.win w).elt :=
  ((cfg0.win w).blk t).view.read (Elt F) (m ((c.tc : Thread nD τ).loc (Pipeline.arrRef spec0 w)))

/-! ## The body's two branch conditions over the grid -/

/-- "This is the first column block": the reset branch's condition, from the grid coordinates. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column block": the write-out branch's condition. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- Off the last column block the output window is idle and not written back; on it, live. -/
theorem idle4_of_not_last : ∀ t : Fin cfg0.N, ¬condLast (grid0.coords t) → cfg0.idle 4 (grid0.coords t) = true := by decide +kernel
theorem noFlush4_of_not_last : ∀ t : Fin cfg0.N, ¬condLast (grid0.coords t) → (cfg0.win 4).flush t = false := by decide +kernel
theorem live4_of_last : ∀ t : Fin cfg0.N, condLast (grid0.coords t) → cfg0.idle 4 (grid0.coords t) = false := by decide +kernel

/-! ## The staging memrefs at a point -/

abbrev ms0 (t : Fin cfg0.N) : Memref sig .tc .vmem S512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)
/-- The scratch accumulator: a whole scoped buffer of the kernel's own. -/
abbrev scM : Memref sig .tc .vmem S512 .f32 := Memref.whole cc0_scratch0
/-- The views through which the output block's and the accumulator's contents are stated. -/
abbrev VO : View sig .tc .vmem S512 .f32 := (Memref.whole cc0_stg4_0 : Memref sig .tc .vmem S512 .f32).view
abbrev VS : View sig .tc .vmem S512 .f32 := scM.view

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KernelRunFirst.lean ====
/-
  The body's run at the FIRST column block of a row (reset taken, write-out not taken): the accumulator, whatever it
  held, is overwritten twice — by zeros, then by zeros plus this block's row sums — and the output block is not touched.
  The pieces the two stores leave in the accumulator are found by running the body.
-/
import proofs.«100222_j65532611002859_1_alg».proof.Proof.KernelRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the run leaves in the accumulator (last store first), with the run itself: from the four input blocks at
    their contents and the accumulator at anything, the body reaches its continuation with the inputs as they were and
    the accumulator's pieces written. -/
noncomputable def runFirst (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : condFirst i) (hc1 : ¬condLast i)
    (x0 x1 x2 x3 : Vec F S512 .f32) :
    { LS : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_hinge_kernel i arg2 harg2 arg3 harg3 arg4 harg4 arg5 harg5 arg6 harg6 arg7 harg7) K } := by
  refine ⟨?_, fun E K => ?run⟩
  case run =>
    simp only [cc0__pairwise_hinge_kernel_eq_skeleton]; unfold cc0__pairwise_hinge_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.KernelRunMid.lean ====
/-
  The body's run at a column block that is neither the first nor the last of its row (neither branch taken): this
  block's row sums are added to what the accumulator held, and the output block is not touched.
-/
import proofs.«100222_j65532611002859_1_alg».proof.Proof.KernelRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece the run leaves in the accumulator, with the run: from the four input blocks at their contents and the
    accumulator at `xs`, the body reaches its continuation with the inputs as they were and the piece written. -/
noncomputable def runMid (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : ¬condLast i)
    (x0 x1 x2 x3 : Vec F S512 .f32) (xs : Vec F S512 .f32) :
    { LS : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_hinge_kernel i arg2 harg2 arg3 harg3 arg4 harg4 arg5 harg5 arg6 harg6 arg7 harg7) K } := by
  refine ⟨?_, fun E K => ?run⟩
  case run =>
    simp only [cc0__pairwise_hinge_kernel_eq_skeleton]; unfold cc0__pairwise_hinge_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.KernelRunLast.lean ====
/-
  The body's run at the LAST column block of a row (reset not taken, write-out taken): this block's row sums are added
  to what the accumulator held, and the accumulator is then copied whole into the output block.
-/
import proofs.«100222_j65532611002859_1_alg».proof.Proof.KernelRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the run leaves in the output block and in the accumulator, with the run: from the four input blocks at
    their contents, the output block at anything and the accumulator at `xs`, the body reaches its continuation with
    the inputs as they were and both buffers' pieces written. -/
noncomputable def runLast (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i)
    (x0 x1 x2 x3 : Vec F S512 .f32) (xs : Vec F S512 .f32) :
    Σ' (LO : List (View.Piece (Elt F) S512 .f32)), { LS : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_hinge_kernel i arg2 harg2 arg3 harg3 arg4 harg4 arg5 harg5 arg6 harg6 arg7 harg7) K } := by
  refine ⟨?_, ?_, fun E K => ?run⟩
  case run =>
    simp only [cc0__pairwise_hinge_kernel_eq_skeleton]; unfold cc0__pairwise_hinge_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.KernelFrame.lean ====
/-
  The proof data of the pairwise-hinge region and its body obligation. After the body at point `n` the scratch
  accumulator holds `accAt n`: at the first column block of a row what the reset-and-add run leaves, elsewhere what
  the add run leaves over `accAt (n - 1)`. At the last column block of a row the output block holds what the
  write-out run copies from the accumulator; elsewhere the output window is idle. The four input windows hold their
  blocks at every point.
-/
import proofs.«100222_j65532611002859_1_alg».proof.Proof.KernelRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves, read back -/

theorem coverFirst (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : condFirst i) (hc1 : ¬condLast i) (x0 x1 x2 x3 : Vec F S512 .f32) (y : S512.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S512.size (by sl_kernel_rfl) y

/-- The accumulator after the first column block's run. -/
def accFirst (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : condFirst i) (hc1 : ¬condLast i) (x0 x1 x2 x3 : Vec F S512 .f32) : Vec F S512 .f32 :=
  VS.read (Elt F) (VS.writes (Elt F) VS.junk (runFirst c i arg2 harg2 arg3 harg3 arg4 harg4 arg5 harg5 arg6 harg6 arg7 harg7 hc0 hc1 x0 x1 x2 x3).1)

theorem coverMid (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : ¬condLast i) (x0 x1 x2 x3 xs : Vec F S512 .f32) (y : S512.Idx) :
    ∃ pc ∈ (runMid c i arg2 harg2 arg3 harg3 arg4 harg4 arg5 harg5 arg6 harg6 arg7 harg7 hc0 hc1 x0 x1 x2 x3 xs).1, y ∈ pc.1.set :=
  View.cover_of_tiledL (runMid c i arg2 harg2 arg3 harg3 arg4 harg4 arg5 harg5 arg6 harg6 arg7 harg7 hc0 hc1 x0 x1 x2 x3 xs).1 S512.size (by sl_kernel_rfl) y

/-- The accumulator after a middle column block's run over `xs`. -/
def accMid (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : ¬condLast i) (x0 x1 x2 x3 xs : Vec F S512 .f32) : Vec F S512 .f32 :=
  VS.read (Elt F) (VS.writes (Elt F) VS.junk (runMid c i arg2 harg2 arg3 harg3 arg4 harg4 arg5 harg5 arg6 harg6 arg7 harg7 hc0 hc1 x0 x1 x2 x3 xs).1)

theorem coverLastO (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) (y : S512.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S512.size (by sl_kernel_rfl) y

/-- The output block after the last column block's run over `xs`. -/
def outLast (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) : Vec F S512 .f32 :=
  VO.read (Elt F) (VO.writes (Elt F) VO.junk (runLast c i arg2 harg2 arg3 harg3 arg4 harg4 arg5 harg5 arg6 harg6 arg7 harg7 hc0 hc1 x0 x1 x2 x3 xs).1)

theorem coverLastS (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) (y : S512.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S512.size (by sl_kernel_rfl) y

/-- The accumulator after the last column block's run over `xs`. -/
def accLast (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) : Vec F S512 .f32 :=
  VS.read (Elt F) (VS.writes (Elt F) VS.junk (runLast c i arg2 harg2 arg3 harg3 arg4 harg4 arg5 harg5 arg6 harg6 arg7 harg7 hc0 hc1 x0 x1 x2 x3 xs).2.1)

/-! ## The accumulator point by point -/

/-- What the scratch accumulator holds after the body at position `n`. -/
def accAt (c : Dev nD) : (n : ℕ) → n < cfg0.N → Vec F S512 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 16 = 0 then
      if h1 : (n + 1) % 16 = 15 then False.elim (by omega)
      else accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 16 = 15 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_first (c : Dev nD) (t : Fin cfg0.N) (h0 : t.val % 16 = 0) (h1 : ¬t.val % 16 = 15) :
    accAt m c t.val t.isLt = accFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem accAt_mid (c : Dev nD) (t : Fin cfg0.N) (h0 : ¬t.val % 16 = 0) (h1 : ¬t.val % 16 = 15) :
    accAt m c t.val t.isLt = accMid c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 16 = 0) (h1 : t.val % 16 = 15) :
    accAt m c t.val t.isLt = accLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block holds after the body at point `t`: at the last column block of a row the accumulator's copy;
    elsewhere the window is idle and this value is never consulted. -/
def outAt (c : Dev nD) (t : Fin cfg0.N) : Vec F S512 .f32 :=
  if h1 : t.val % 16 = 15 then
    outLast c (grid0.coords t) (ms0 t) (hs0 t) (ms1 t) (hs1 t) (ms2 t) (hs2 t) (ms3 t) (hs3 t) (ms4 t) (hs4 t) scM (Memref.isWhole_whole _) (fun h => (fun h => by omega) ((hcondFirst t).mp h)) ((hcondLast t).mpr h1) (iblk m c 0 t) (iblk m c 1 t) (iblk m c 2 t) (iblk m c 3 t) (accAt m c (t.val - 1) (Nat.lt_of_le_of_lt (Nat.sub_le _ _) t.isLt))
  else accAt m c t.val t.isLt

theorem outAt_last (c : Dev nD) (t : Fin cfg0.N) (h0 : ¬t.val % 16 = 0) (h1 : t.val % 16 = 15) :
    outAt m c t = outLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt)) := by
  unfold outAt; rw [dif_pos h1]

/-! ## The region invariant -/

/-- Before the first point the class invariant (the accumulator at anything); afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as launched; after the body each input window at its block, the output window at `outAt`; the invariant
    `PhiS`; each argument array's share dealt between its two windows; nothing owed. -/
def dats (_ : Fin 1) (c : Dev nD) : Dat τ (Elt F) Unit ℕ (UR sig nD τ) ℕ cfg0 c where
  A w := m ((c.tc : Thread nD τ).loc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = m ((c.tc : Thread nD τ).loc (Pipeline.arrRef spec0 w)) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; `t % 16` says which run applies; the invariant hands
    the body the accumulator at what the point before left (at anything before the first point) and takes it back at this
    point's contents; off the last column block the output buffer is handed back as found; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [Dat.leavesExact_idle (dats m 0 c) 4 t (idle4_of_not_last t (fun h => h1 ((hcondLast t).mp h))) (noFlush4_of_not_last t (fun h => h1 ((hcondLast t).mp h)))]
    rw [accAt_first m c t h0 h1]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ (ms4 t) (hs4 t) _ _ ((hcondFirst t).mpr h0) (fun h => h1 ((hcondLast t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ (ms4 t) (hs4 t) _ _ ((hcondFirst t).mpr h0) (fun h => h1 ((hcondLast t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4_of_last t ((hcondLast t).mpr h1)], after4]
      rw [accAt_last m c t h0 h1, outAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverLastS c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO c _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4_of_not_last t (fun h => h1 ((hcondLast t).mp h))) (noFlush4_of_not_last t (fun h => h1 ((hcondLast t).mp h)))]
      rw [accAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ (ms4 t) (hs4 t) _ _ (fun h => h0 ((hcondFirst t).mp h)) (fun h => h1 ((hcondLast t).mp h)) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA_eq]
  iintro ⟨HS, Hg⟩
  isplitl [HS]
  · iexists _; iexact HS
  iexact Hg

end Cert.Kernel.Hand

end
-- ==== Proof.KernelLaunch.lean ====
/-
  The launch of the program whose one kernel region reads each argument array through TWO windows (a row block and a
  column block of the same vector), continued by four host operations on the region's result.
-/
import proofs.«100222_j65532611002859_1_alg».proof.Proof.Gen.Kernel.Launch
import proofs.«100222_j65532611002859_1_alg».proof.Proof.Gen.Kernel.Points
import Idealize.ShloMosaic.Lib.Pipeline.Frame
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- How each argument array's full share is dealt between the two windows that read it: the row-block window takes the
    left half, the column-block window the right half (the result's window holds its array outright). -/
def qShare : Fin 5 → PosShare TreeShare := fun
  | 0 => fullShare.left | 1 => fullShare.left | 2 => fullShare.right | 3 => fullShare.right | 4 => fullShare
  | ⟨_ + 5, h⟩ => absurd h (Nat.not_lt.2 (Nat.le_add_left _ _))

/-- What the four host operations after the region compute from the region's result array: its sum from the zero word,
    times the scale word. -/
def tailVal (o : (⟨S8192, .f32⟩ : BufTy).Contents (Elt F)) : (⟨S_, .f32⟩ : BufTy).Contents (Elt F) :=
  mulf (constant S_ .f32 0x33000000#32) (Host.reduceAdd o (constant S_ .f32 0x00000000#32) reducesTo_S8192_S_d0 h_S_)

variable (m : (ℓ : Loc nD τ sig) → Buf (Elt F) ℓ) (ρ : Dev nD → PrngReg)

/-! ## The shares and the windows' arrays -/

/-- Each window's array is held at the share dealt to it: an input window's its own, the result window's the whole. -/
theorem share_eq (c : Dev nD) (dat : Dat τ (Elt F) Unit ℕ (UR sig nD τ) ℕ cfg0 c) (hq : ∀ w, dat.q w = qShare w) :
    ∀ w : Fin 5, dat.share w = qShare w
  | 0 => by unfold Dat.share; rw [if_neg (by exact Bool.false_ne_true)]; exact hq 0
  | 1 => by unfold Dat.share; rw [if_neg (by exact Bool.false_ne_true)]; exact hq 1
  | 2 => by unfold Dat.share; rw [if_neg (by exact Bool.false_ne_true)]; exact hq 2
  | 3 => by unfold Dat.share; rw [if_neg (by exact Bool.false_ne_true)]; exact hq 3
  | 4 => by unfold Dat.share; rw [if_pos rfl]; rfl
  | ⟨_ + 5, h⟩ => absurd h (Nat.not_lt.2 (Nat.le_add_left _ _))

/-- The windows' arrays, one by one: each argument array's two halves and the result array whole. -/
theorem arrays_eq_chain (c : Dev nD) (dat : Dat τ (Elt F) Unit ℕ (UR sig nD τ) ℕ cfg0 c) (hq : ∀ w, dat.q w = qShare w)
    (G : (w : Fin 5) → Buf (Elt F) ((cfg0.win w).arr.view.loc (c.tc : Thread nD τ))) :
    (dat.arrays G : sProp 𝕄) = iprop(
      (((c.tc : Thread nD τ).loc main_arg0) ↦{fullShare.left} G 0) ∗ (((c.tc : Thread nD τ).loc main_arg1) ↦{fullShare.left} G 1) ∗
      (((c.tc : Thread nD τ).loc main_arg0) ↦{fullShare.right} G 2) ∗ (((c.tc : Thread nD τ).loc main_arg1) ↦{fullShare.right} G 3) ∗
      (((c.tc : Thread nD τ).loc main_v0) ↦{fullShare} G 4)) := by
  have h : (dat.arrays G : sProp 𝕄)
      = bigSep Finset.univ fun w : Fin 5 => (((c.tc : Thread nD τ).loc (Pipeline.arrRef spec0 w)) ↦{qShare w} G w : sProp 𝕄) := by
    unfold Dat.arrays
    exact bigSep_congr fun w _ => by rw [(arr_whole0 w).set_eq_univ, share_eq c dat hq w]
  rw [h, bigSep_W0]
  rfl

/-! ## The four host operations after the region -/

/-- The buffers the four host operations after the region touch: the region's result array and the operations' own four. -/
def tailList : List (Ref sig .tc) := [main_v0, main_cst, main_v1, main_cst_0, main_v2]

/-- The same as a set of device buffers. -/
def tailSet : Finset (DevRef τ sig) := tailList.toFinset.map ⟨Proc.devRef (sig := sig) .tc, Proc.devRef_injective _⟩

theorem mem_tailSet {r : Ref sig .tc} (h : r ∈ tailList) : Proc.devRef (τ := τ) .tc r ∈ tailSet :=
  Finset.mem_map_of_mem _ (List.mem_toFinset.mpr h)

/-- Holding that set at a valuation is holding its five buffers one by one. -/
theorem held_tailSet (c : Dev nD) (W : Valuation τ sig (Elt F)) :
    (StableHlo.held (c.tc : Thread nD τ) tailSet W : sProp 𝕄) = iprop(
      (((c.tc : Thread nD τ).loc main_v0) ↦{fullShare} W (Proc.devRef .tc main_v0))
      ∗ (((c.tc : Thread nD τ).loc main_cst) ↦{fullShare} W (Proc.devRef .tc main_cst))
      ∗ (((c.tc : Thread nD τ).loc main_v1) ↦{fullShare} W (Proc.devRef .tc main_v1))
      ∗ (((c.tc : Thread nD τ).loc main_cst_0) ↦{fullShare} W (Proc.devRef .tc main_cst_0))
      ∗ (((c.tc : Thread nD τ).loc main_v2) ↦{fullShare} W (Proc.devRef .tc main_v2))) := by
  unfold StableHlo.held tailSet
  rw [bigSep_map, bigSep_eq_bigSepL tailList (by decide)]
  rfl

/-- Every operation of the tail stays within that set, -/
theorem hostOps1_within : ∀ ops ∈ [(hostOps1 : List (HloOp τ sig (Elt F)))], ∀ op ∈ ops, op.bufs ⊆ tailSet := by
  intro ops hops op hop
  obtain rfl := List.mem_singleton.mp hops
  simp only [List.mem_cons, List.mem_nil_iff, or_false] at hop
  rcases hop with rfl | rfl | rfl | rfl
  · rw [StableHlo.nullary_bufs]
    exact Finset.singleton_subset_iff.mpr (mem_tailSet (by decide))
  · rw [StableHlo.binary_bufs]
    simp only [Finset.insert_subset_iff, Finset.singleton_subset_iff]
    exact ⟨mem_tailSet (by decide), mem_tailSet (by decide), mem_tailSet (by decide)⟩
  · rw [StableHlo.nullary_bufs]
    exact Finset.singleton_subset_iff.mpr (mem_tailSet (by decide))
  · rw [StableHlo.binary_bufs]
    simp only [Finset.insert_subset_iff, Finset.singleton_subset_iff]
    exact ⟨mem_tailSet (by decide), mem_tailSet (by decide), mem_tailSet (by decide)⟩

/-- and none allocates. -/
theorem hostOps1_fresh : ∀ ops ∈ [(hostOps1 : List (HloOp τ sig (Elt F)))], ∀ op ∈ ops, op.fresh = ∅ := by
  intro ops hops op hop
  obtain rfl := List.mem_singleton.mp hops
  simp only [List.mem_cons, List.mem_nil_iff, or_false] at hop
  rcases hop with rfl | rfl | rfl | rfl <;> rfl

/-- After the tail the result buffer holds the tail's function of the region's result array, -/
theorem after_v2 (W : Valuation τ sig (Elt F)) :
    StableHlo.after hostOps1 W (Proc.devRef .tc main_v2) = tailVal (W (Proc.devRef .tc main_v0)) := by
  after_results
  rfl

/-- which the tail leaves as it found it. -/
theorem after_v0 (W : Valuation τ sig (Elt F)) :
    StableHlo.after hostOps1 W (Proc.devRef .tc main_v0) = W (Proc.devRef .tc main_v0) := by
  after_results

/-- The device's buffers at the region's exit, as far as the tail reads them: the result array at the region's output `o`,
    every other buffer as launched. -/
def exitVal (c : Dev nD) (o : (⟨S8192, .f32⟩ : BufTy).Contents (Elt F)) : Valuation τ sig (Elt F) :=
  open Classical in Function.update (fun b => m (c, b)) (Proc.devRef .tc main_v0) o

theorem exitVal_v0 (c : Dev nD) (o : (⟨S8192, .f32⟩ : BufTy).Contents (Elt F)) : exitVal m c o (Proc.devRef .tc main_v0) = o := by
  unfold exitVal; exact Function.update_self ..

theorem exitVal_ne (c : Dev nD) (o : (⟨S8192, .f32⟩ : BufTy).Contents (Elt F)) {r : Ref sig .tc} (h : r ≠ main_v0) :
    exitVal m c o (Proc.devRef .tc r) = m ((c.tc : Thread nD τ).loc r) := by
  unfold exitVal; exact Function.update_of_ne (StableHlo.devRef_ne_of_ne h) ..

/-! ## The run -/

/-- THE RUN, for any proof data of the region that deal the shares as `qShare`, start from the launch memory, owe nothing,
    and whose invariant is entered from and returns to the class invariant: every weakly fair execution of @main
    terminates without a fault, both argument arrays end as launched, and the result is the tail's function of the
    region's output array as the library computes it from the proof data. -/
theorem run_main_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qShare w)
    (howed : ∀ c t, (dats 0 c).owed t = 0)
    (hA : ∀ c w, (dats 0 c).A w = m ((c.tc : Thread nD τ).loc (Pipeline.arrRef spec0 w)))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v2) = tailVal ((dats 0 c).arrAt 4 cfg0.N)) := by
  classical
  -- The region is launched with no semaphore of the kernel's own and no prefetched table; what follows it is the one
  -- line of four host operations. The generator register goes into the invariant (`X`, `Y`), the four unscoped buffers
  -- that are no window's array wait beside the region (`Z`) for the tail, which leaves the result's buffer at the
  -- tail's value of the region's output (`Z'`).
  refine Pipeline.θ_run_region_pf_tail (fun p => (cfgs p).toPCfg) (fun p => (cfgs p).toPCfg_adm) dats () cellOf_inj 0 winFacts₀0
    (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := ?hu) (V := fun c b => m ((c.tc : Thread nD τ).loc b)) (hmain := ?hmain) (hsplit := ?hsplit) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (fun b => m ((c.tc : Thread nD τ).loc b)))
    (Z' := fun c => (((c.tc : Thread nD τ).loc main_v2) ↦{fullShare} tailVal ((dats 0 c).arrAt 4 cfg0.N)))
    (hX := ?hX) (hin := ?hin) (hout := ?hout) (htail := ?htail)
    (QY := fun c s => s.mem ((c.tc : Thread nD τ).loc main_v2) = tailVal ((dats 0 c).arrAt 4 cfg0.N)) (hY := ?hY) (hQ := ?hQ)
  case hu =>
    -- the launch element is the pipeline's cells and nothing else
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hmain =>
    -- @main is the region, entered at the launch contents, continued by the line of four operations
    exact Pipeline.hmain_around cfgs 0 defs₀ Variants.none m main [] [hostOps1] (by trivial) (by trivial) (fun c => by rw [main_chain]; rfl)
  case hsplit =>
    -- the three distinct buffers behind the five windows: each argument array's full share is its left half, for the
    -- row-block window, and its right half, for the column-block window; the result array goes whole to its window
    intro c
    rw [arrays_eq_chain c (dats 0 c) (hq c)]
    have hL : (Pipeline.arrBufs (Ix := Unit) (Name := ℕ) (U := UR sig nD τ) (Lvl := ℕ) spec0 c (fun b => m ((c.tc : Thread nD τ).loc b)) : sProp 𝕄)
        = iprop((((c.tc : Thread nD τ).loc main_arg0) ↦{fullShare} m ((c.tc : Thread nD τ).loc main_arg0))
            ∗ (((c.tc : Thread nD τ).loc main_arg1) ↦{fullShare} m ((c.tc : Thread nD τ).loc main_arg1))
            ∗ (((c.tc : Thread nD τ).loc main_v0) ↦{fullShare} m ((c.tc : Thread nD τ).loc main_v0))) := by
      unfold Pipeline.arrBufs
      exact bigSep_eq_bigSepL_of_eq [main_arg0, main_arg1, main_v0] (by decide) (by decide) _
    refine (Entails.of_eq hL).trans ?_
    have e : ∀ w, (dats 0 c).arrAt w 0 = m ((c.tc : Thread nD τ).loc (Pipeline.arrRef spec0 w)) := fun w => hA c w
    rw [e 0, e 1, e 2, e 3, e 4]
    iintro ⟨H0, H1, H2⟩
    ihave H0' := (pointsTo_share (PosShare.mem_left_op_right fullShare)).1 $$ H0
    icases H0' with ⟨H0l, H0r⟩
    ihave H1' := (pointsTo_share (PosShare.mem_left_op_right fullShare)).1 $$ H1
    icases H1' with ⟨H1l, H1r⟩
    isplitl [H0l]; · iexact H0l
    isplitl [H1l]; · iexact H1l
    isplitl [H0r]; · iexact H0r
    isplitl [H1r]; · iexact H1r
    iexact H2
  case hX =>
    -- the generator register, at whatever state, is the invariant's; the bypassing buffers wait for the tail
    intro c
    rw [Pipeline.unscopedRestP_none]
    iintro ⟨HU, -, -, -, Hp, -⟩; imodintro
    isplitl [Hp]; · iexists _; iexact Hp
    iexact HU
  case hin =>
    -- the scoped rest and the generator register are the class invariant, from which the data's invariant is entered
    intro c
    exact (show _ ⊢ Pipeline.ΦA spec0 c from by
      unfold Pipeline.ΦA; iintro ⟨Hp, -, Hr⟩
      isplitl [Hr] <;> iassumption).trans (hin c)
  case hout =>
    -- and to which it returns after the last point
    intro c
    refine (hout c).trans ?_
    rw [Pipeline.ownSems0_none]; unfold Pipeline.ΦA
    iintro ⟨Hr, Hp⟩
    isplitl [Hp]; · iexact Hp
    isplitr; · iempintro
    iexact Hr
  case htail =>
    -- the four operations run within the result array, held whole by its window, and their own four buffers; the
    -- argument arrays' halves stand beside untouched. At the end the result array is as the region left it and the
    -- last operation's buffer holds the scaled sum of it.
    intro c Q'
    have hrun := Pipeline.wp_seqs_then (Ix := Unit) (Name := ℕ) (U := UR sig nD τ) (Lvl := ℕ) (fun p => (cfgs p).toPCfg) defs₀ Variants.none c tailSet []
      (K := Q') [hostOps1] hostOps1_within hostOps1_fresh (exitVal m c ((dats 0 c).arrAt 4 cfg0.N))
    rw [Pipeline.chain_nil, wp_pure, List.append_nil, held_tailSet, held_tailSet, List.flatten_cons, List.flatten_nil, List.append_nil,
      after_v0, after_v2, exitVal_v0, exitVal_ne m c _ (by decide : main_cst ≠ main_v0), exitVal_ne m c _ (by decide : main_v1 ≠ main_v0),
      exitVal_ne m c _ (by decide : main_cst_0 ≠ main_v0), exitVal_ne m c _ (by decide : main_v2 ≠ main_v0)] at hrun
    rw [arrays_eq_chain c (dats 0 c) (hq c), unscopedRest0_eq]
    iintro ⟨Hk, Hb, ⟨H0, H1, H2, H3, H4⟩, Hc, Hv1, Hc0, Hv2⟩
    iapply hrun $$ [Hb H4 Hc Hv1 Hc0 Hv2]
    · isplitl [Hb]; · iexact Hb
      isplitl [H4]; · iexact H4
      isplitl [Hc]; · iexact Hc
      isplitl [Hv1]; · iexact Hv1
      isplitl [Hc0]; · iexact Hc0
      iexact Hv2
    iintro ⟨Hb, H4, -, -, -, Hv2⟩
    imodintro
    iapply Hk
    isplitr [Hv2]
    · isplitl [H0]; · iexact H0
      isplitl [H1]; · iexact H1
      isplitl [H2]; · iexact H2
      isplitl [H3]; · iexact H3
      iexact H4
    iexact Hv2
  case hY =>
    -- the result's buffer, held whole, is what the final memory holds there
    intro c s'
    iintro ⟨-, HZ, HSI⟩
    icombine HSI HZ gives %h
    imodintro
    isplitr; · ipureintro; exact Buf.eq_of_forall_mem_univ h
    iexact HSI
  case hQ =>
    -- an input window's array is never written: each argument array ends at its entry contents, the launch contents
    intro s h c
    refine ⟨?_, ?_, (h c).2.2⟩
    · exact ((h c).1 0).trans (((dats 0 c).arrAt_in 0 rfl _).trans (hA c 0))
    · exact ((h c).1 1).trans (((dats 0 c).arrAt_in 1 rfl _).trans (hA c 1))

end Cert.Kernel.Hand

end
-- ==== Proof.KernelIdealRuns.lean ====
/-
  What the three runs of the pairwise-hinge kernel body are stated over. The grid is 16 row blocks by 16 column
  blocks, walked row-major: point `t` is row block `t / 16`, column block `t % 16`. The body resets its scratch
  accumulator at the first column block of a row (`t % 16 = 0`), adds the block's row sums to it at every point, and
  copies it into the output block at the last column block (`t % 16 = 15`); at the other points the output window is
  idle and is not written back.
-/
import proofs.«100222_j65532611002859_1_alg».proof.Proof.Gen.KernelIdeal.Launch
import proofs.«100222_j65532611002859_1_alg».proof.Proof.Gen.KernelIdeal.Skeleton
import proofs.«100222_j65532611002859_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array in the launch memory (no host operation runs before the region). -/
def iblk (c : Dev nD) (w : Fin cfg0.W) (t : Fin cfg0.N) : ((cfg0.win w).xblock (cfg0.grid.coords t)).Idx → Elt F (cfg0.win w).elt :=
  ((cfg0.win w).blk t).view.read (Elt F) (m ((c.tc : Thread nD τ).loc (Pipeline.arrRef spec0 w)))

/-! ## The body's two branch conditions over the grid -/

/-- "This is the first column block": the reset branch's condition, from the grid coordinates. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column block": the write-out branch's condition. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- Off the last column block the output window is idle and not written back; on it, live. -/
theorem idle4_of_not_last : ∀ t : Fin cfg0.N, ¬condLast (grid0.coords t) → cfg0.idle 4 (grid0.coords t) = true := by decide +kernel
theorem noFlush4_of_not_last : ∀ t : Fin cfg0.N, ¬condLast (grid0.coords t) → (cfg0.win 4).flush t = false := by decide +kernel
theorem live4_of_last : ∀ t : Fin cfg0.N, condLast (grid0.coords t) → cfg0.idle 4 (grid0.coords t) = false := by decide +kernel

/-! ## The staging memrefs at a point -/

abbrev ms0 (t : Fin cfg0.N) : Memref sig .tc .vmem S512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)
/-- The scratch accumulator: a whole scoped buffer of the kernel's own. -/
abbrev scM : Memref sig .tc .vmem S512 .f32 := Memref.whole cc0_scratch0
/-- The views through which the output block's and the accumulator's contents are stated. -/
abbrev VO : View sig .tc .vmem S512 .f32 := (Memref.whole cc0_stg4_0 : Memref sig .tc .vmem S512 .f32).view
abbrev VS : View sig .tc .vmem S512 .f32 := scM.view

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KernelIdealRunFirst.lean ====
/-
  The body's run at the FIRST column block of a row (reset taken, write-out not taken): the accumulator, whatever it
  held, is overwritten twice — by zeros, then by zeros plus this block's row sums — and the output block is not touched.
  The pieces the two stores leave in the accumulator are found by running the body.
-/
import proofs.«100222_j65532611002859_1_alg».proof.Proof.KernelIdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the run leaves in the accumulator (last store first), with the run itself: from the four input blocks at
    their contents and the accumulator at anything, the body reaches its continuation with the inputs as they were and
    the accumulator's pieces written. -/
noncomputable def runFirst (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : condFirst i) (hc1 : ¬condLast i)
    (x0 x1 x2 x3 : Vec F S512 .f32) :
    { LS : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_hinge_kernel i arg2 harg2 arg3 harg3 arg4 harg4 arg5 harg5 arg6 harg6 arg7 harg7) K } := by
  refine ⟨?_, fun E K => ?run⟩
  case run =>
    simp only [cc0__pairwise_hinge_kernel_eq_skeleton]; unfold cc0__pairwise_hinge_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KernelIdealRunMid.lean ====
/-
  The body's run at a column block that is neither the first nor the last of its row (neither branch taken): this
  block's row sums are added to what the accumulator held, and the output block is not touched.
-/
import proofs.«100222_j65532611002859_1_alg».proof.Proof.KernelIdealRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece the run leaves in the accumulator, with the run: from the four input blocks at their contents and the
    accumulator at `xs`, the body reaches its continuation with the inputs as they were and the piece written. -/
noncomputable def runMid (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : ¬condLast i)
    (x0 x1 x2 x3 : Vec F S512 .f32) (xs : Vec F S512 .f32) :
    { LS : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_hinge_kernel i arg2 harg2 arg3 harg3 arg4 harg4 arg5 harg5 arg6 harg6 arg7 harg7) K } := by
  refine ⟨?_, fun E K => ?run⟩
  case run =>
    simp only [cc0__pairwise_hinge_kernel_eq_skeleton]; unfold cc0__pairwise_hinge_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KernelIdealRunLast.lean ====
/-
  The body's run at the LAST column block of a row (reset not taken, write-out taken): this block's row sums are added
  to what the accumulator held, and the accumulator is then copied whole into the output block.
-/
import proofs.«100222_j65532611002859_1_alg».proof.Proof.KernelIdealRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the run leaves in the output block and in the accumulator, with the run: from the four input blocks at
    their contents, the output block at anything and the accumulator at `xs`, the body reaches its continuation with
    the inputs as they were and both buffers' pieces written. -/
noncomputable def runLast (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i)
    (x0 x1 x2 x3 : Vec F S512 .f32) (xs : Vec F S512 .f32) :
    Σ' (LO : List (View.Piece (Elt F) S512 .f32)), { LS : List (View.Piece (Elt F) S512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__pairwise_hinge_kernel i arg2 harg2 arg3 harg3 arg4 harg4 arg5 harg5 arg6 harg6 arg7 harg7) K } := by
  refine ⟨?_, ?_, fun E K => ?run⟩
  case run =>
    simp only [cc0__pairwise_hinge_kernel_eq_skeleton]; unfold cc0__pairwise_hinge_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KernelIdealFrame.lean ====
/-
  The proof data of the pairwise-hinge region and its body obligation. After the body at point `n` the scratch
  accumulator holds `accAt n`: at the first column block of a row what the reset-and-add run leaves, elsewhere what
  the add run leaves over `accAt (n - 1)`. At the last column block of a row the output block holds what the
  write-out run copies from the accumulator; elsewhere the output window is idle. The four input windows hold their
  blocks at every point.
-/
import proofs.«100222_j65532611002859_1_alg».proof.Proof.KernelIdealRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves, read back -/

theorem coverFirst (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : condFirst i) (hc1 : ¬condLast i) (x0 x1 x2 x3 : Vec F S512 .f32) (y : S512.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S512.size (by sl_kernel_rfl) y

/-- The accumulator after the first column block's run. -/
def accFirst (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : condFirst i) (hc1 : ¬condLast i) (x0 x1 x2 x3 : Vec F S512 .f32) : Vec F S512 .f32 :=
  VS.read (Elt F) (VS.writes (Elt F) VS.junk (runFirst c i arg2 harg2 arg3 harg3 arg4 harg4 arg5 harg5 arg6 harg6 arg7 harg7 hc0 hc1 x0 x1 x2 x3).1)

theorem coverMid (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : ¬condLast i) (x0 x1 x2 x3 xs : Vec F S512 .f32) (y : S512.Idx) :
    ∃ pc ∈ (runMid c i arg2 harg2 arg3 harg3 arg4 harg4 arg5 harg5 arg6 harg6 arg7 harg7 hc0 hc1 x0 x1 x2 x3 xs).1, y ∈ pc.1.set :=
  View.cover_of_tiledL (runMid c i arg2 harg2 arg3 harg3 arg4 harg4 arg5 harg5 arg6 harg6 arg7 harg7 hc0 hc1 x0 x1 x2 x3 xs).1 S512.size (by sl_kernel_rfl) y

/-- The accumulator after a middle column block's run over `xs`. -/
def accMid (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : ¬condLast i) (x0 x1 x2 x3 xs : Vec F S512 .f32) : Vec F S512 .f32 :=
  VS.read (Elt F) (VS.writes (Elt F) VS.junk (runMid c i arg2 harg2 arg3 harg3 arg4 harg4 arg5 harg5 arg6 harg6 arg7 harg7 hc0 hc1 x0 x1 x2 x3 xs).1)

theorem coverLastO (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) (y : S512.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S512.size (by sl_kernel_rfl) y

/-- The output block after the last column block's run over `xs`. -/
def outLast (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) : Vec F S512 .f32 :=
  VO.read (Elt F) (VO.writes (Elt F) VO.junk (runLast c i arg2 harg2 arg3 harg3 arg4 harg4 arg5 harg5 arg6 harg6 arg7 harg7 hc0 hc1 x0 x1 x2 x3 xs).1)

theorem coverLastS (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) (y : S512.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S512.size (by sl_kernel_rfl) y

/-- The accumulator after the last column block's run over `xs`. -/
def accLast (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) : Vec F S512 .f32 :=
  VS.read (Elt F) (VS.writes (Elt F) VS.junk (runLast c i arg2 harg2 arg3 harg3 arg4 harg4 arg5 harg5 arg6 harg6 arg7 harg7 hc0 hc1 x0 x1 x2 x3 xs).2.1)

/-! ## The accumulator point by point -/

/-- What the scratch accumulator holds after the body at position `n`. -/
def accAt (c : Dev nD) : (n : ℕ) → n < cfg0.N → Vec F S512 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 16 = 0 then
      if h1 : (n + 1) % 16 = 15 then False.elim (by omega)
      else accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 16 = 15 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_first (c : Dev nD) (t : Fin cfg0.N) (h0 : t.val % 16 = 0) (h1 : ¬t.val % 16 = 15) :
    accAt m c t.val t.isLt = accFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem accAt_mid (c : Dev nD) (t : Fin cfg0.N) (h0 : ¬t.val % 16 = 0) (h1 : ¬t.val % 16 = 15) :
    accAt m c t.val t.isLt = accMid c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 16 = 0) (h1 : t.val % 16 = 15) :
    accAt m c t.val t.isLt = accLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block holds after the body at point `t`: at the last column block of a row the accumulator's copy;
    elsewhere the window is idle and this value is never consulted. -/
def outAt (c : Dev nD) (t : Fin cfg0.N) : Vec F S512 .f32 :=
  if h1 : t.val % 16 = 15 then
    outLast c (grid0.coords t) (ms0 t) (hs0 t) (ms1 t) (hs1 t) (ms2 t) (hs2 t) (ms3 t) (hs3 t) (ms4 t) (hs4 t) scM (Memref.isWhole_whole _) (fun h => (fun h => by omega) ((hcondFirst t).mp h)) ((hcondLast t).mpr h1) (iblk m c 0 t) (iblk m c 1 t) (iblk m c 2 t) (iblk m c 3 t) (accAt m c (t.val - 1) (Nat.lt_of_le_of_lt (Nat.sub_le _ _) t.isLt))
  else accAt m c t.val t.isLt

theorem outAt_last (c : Dev nD) (t : Fin cfg0.N) (h0 : ¬t.val % 16 = 0) (h1 : t.val % 16 = 15) :
    outAt m c t = outLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt)) := by
  unfold outAt; rw [dif_pos h1]

/-! ## The region invariant -/

/-- Before the first point the class invariant (the accumulator at anything); afterwards the accumulator at what the
    point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as launched; after the body each input window at its block, the output window at `outAt`; the invariant
    `PhiS`; each argument array's share dealt between its two windows; nothing owed. -/
def dats (_ : Fin 1) (c : Dev nD) : Dat τ (Elt F) Unit ℕ (UR sig nD τ) ℕ cfg0 c where
  A w := m ((c.tc : Thread nD τ).loc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = m ((c.tc : Thread nD τ).loc (Pipeline.arrRef spec0 w)) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; `t % 16` says which run applies; the invariant hands
    the body the accumulator at what the point before left (at anything before the first point) and takes it back at this
    point's contents; off the last column block the output buffer is handed back as found; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · have h1 : ¬t.val % 16 = 15 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [show (dats m 0 c).leavesExact 2 t = owns (c : Thread nD τ) (ms2 t) fullShare ((dats m 0 c).after 2 t) from by
      unfold Dat.leavesExact; rw [live2 t], after2]
    rw [show (dats m 0 c).leavesExact 3 t = owns (c : Thread nD τ) (ms3 t) fullShare ((dats m 0 c).after 3 t) from by
      unfold Dat.leavesExact; rw [live3 t], after3]
    rw [Dat.leavesExact_idle (dats m 0 c) 4 t (idle4_of_not_last t (fun h => h1 ((hcondLast t).mp h))) (noFlush4_of_not_last t (fun h => h1 ((hcondLast t).mp h)))]
    rw [accAt_first m c t h0 h1]
    unfold accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ (ms4 t) (hs4 t) _ _ ((hcondFirst t).mpr h0) (fun h => h1 ((hcondLast t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ (ms4 t) (hs4 t) _ _ ((hcondFirst t).mpr h0) (fun h => h1 ((hcondLast t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4_of_last t ((hcondLast t).mpr h1)], after4]
      rw [accAt_last m c t h0 h1, outAt_last m c t h0 h1]
      unfold outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverLastS c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO c _ _ _ _ _ _ _ _ _ _ _ _ _ _ _ _ _ _ _ _)
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [Dat.leavesExact_idle (dats m 0 c) 4 t (idle4_of_not_last t (fun h => h1 ((hcondLast t).mp h))) (noFlush4_of_not_last t (fun h => h1 ((hcondLast t).mp h)))]
      rw [accAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ (ms4 t) (hs4 t) _ _ (fun h => h0 ((hcondFirst t).mp h)) (fun h => h1 ((hcondLast t).mp h)) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA_eq]
  iintro ⟨HS, Hg⟩
  isplitl [HS]
  · iexists _; iexact HS
  iexact Hg

end Cert.KernelIdeal.Hand

end
-- ==== Proof.KernelIdealLaunch.lean ====
/-
  The launch of the program whose one kernel region reads each argument array through TWO windows (a row block and a
  column block of the same vector), continued by four host operations on the region's result.
-/
import proofs.«100222_j65532611002859_1_alg».proof.Proof.Gen.KernelIdeal.Launch
import proofs.«100222_j65532611002859_1_alg».proof.Proof.Gen.KernelIdeal.Points
import Idealize.ShloMosaic.Lib.Pipeline.Frame
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- How each argument array's full share is dealt between the two windows that read it: the row-block window takes the
    left half, the column-block window the right half (the result's window holds its array outright). -/
def qShare : Fin 5 → PosShare TreeShare := fun
  | 0 => fullShare.left | 1 => fullShare.left | 2 => fullShare.right | 3 => fullShare.right | 4 => fullShare
  | ⟨_ + 5, h⟩ => absurd h (Nat.not_lt.2 (Nat.le_add_left _ _))

/-- What the four host operations after the region compute from the region's result array: its sum from the zero word,
    times the scale word. -/
def tailVal (o : (⟨S8192, .f32⟩ : BufTy).Contents (Elt F)) : (⟨S_, .f32⟩ : BufTy).Contents (Elt F) :=
  mulf (constant S_ .f32 0x33000000#32) (Host.reduceAdd o (constant S_ .f32 0x00000000#32) reducesTo_S8192_S_d0 h_S_)

variable (m : (ℓ : Loc nD τ sig) → Buf (Elt F) ℓ) (ρ : Dev nD → PrngReg)

/-! ## The shares and the windows' arrays -/

/-- Each window's array is held at the share dealt to it: an input window's its own, the result window's the whole. -/
theorem share_eq (c : Dev nD) (dat : Dat τ (Elt F) Unit ℕ (UR sig nD τ) ℕ cfg0 c) (hq : ∀ w, dat.q w = qShare w) :
    ∀ w : Fin 5, dat.share w = qShare w
  | 0 => by unfold Dat.share; rw [if_neg (by exact Bool.false_ne_true)]; exact hq 0
  | 1 => by unfold Dat.share; rw [if_neg (by exact Bool.false_ne_true)]; exact hq 1
  | 2 => by unfold Dat.share; rw [if_neg (by exact Bool.false_ne_true)]; exact hq 2
  | 3 => by unfold Dat.share; rw [if_neg (by exact Bool.false_ne_true)]; exact hq 3
  | 4 => by unfold Dat.share; rw [if_pos rfl]; rfl
  | ⟨_ + 5, h⟩ => absurd h (Nat.not_lt.2 (Nat.le_add_left _ _))

/-- The windows' arrays, one by one: each argument array's two halves and the result array whole. -/
theorem arrays_eq_chain (c : Dev nD) (dat : Dat τ (Elt F) Unit ℕ (UR sig nD τ) ℕ cfg0 c) (hq : ∀ w, dat.q w = qShare w)
    (G : (w : Fin 5) → Buf (Elt F) ((cfg0.win w).arr.view.loc (c.tc : Thread nD τ))) :
    (dat.arrays G : sProp 𝕄) = iprop(
      (((c.tc : Thread nD τ).loc main_arg0) ↦{fullShare.left} G 0) ∗ (((c.tc : Thread nD τ).loc main_arg1) ↦{fullShare.left} G 1) ∗
      (((c.tc : Thread nD τ).loc main_arg0) ↦{fullShare.right} G 2) ∗ (((c.tc : Thread nD τ).loc main_arg1) ↦{fullShare.right} G 3) ∗
      (((c.tc : Thread nD τ).loc main_v0) ↦{fullShare} G 4)) := by
  have h : (dat.arrays G : sProp 𝕄)
      = bigSep Finset.univ fun w : Fin 5 => (((c.tc : Thread nD τ).loc (Pipeline.arrRef spec0 w)) ↦{qShare w} G w : sProp 𝕄) := by
    unfold Dat.arrays
    exact bigSep_congr fun w _ => by rw [(arr_whole0 w).set_eq_univ, share_eq c dat hq w]
  rw [h, bigSep_W0]
  rfl

/-! ## The four host operations after the region -/

/-- The buffers the four host operations after the region touch: the region's result array and the operations' own four. -/
def tailList : List (Ref sig .tc) := [main_v0, main_cst, main_v1, main_cst_0, main_v2]

/-- The same as a set of device buffers. -/
def tailSet : Finset (DevRef τ sig) := tailList.toFinset.map ⟨Proc.devRef (sig := sig) .tc, Proc.devRef_injective _⟩

theorem mem_tailSet {r : Ref sig .tc} (h : r ∈ tailList) : Proc.devRef (τ := τ) .tc r ∈ tailSet :=
  Finset.mem_map_of_mem _ (List.mem_toFinset.mpr h)

/-- Holding that set at a valuation is holding its five buffers one by one. -/
theorem held_tailSet (c : Dev nD) (W : Valuation τ sig (Elt F)) :
    (StableHlo.held (c.tc : Thread nD τ) tailSet W : sProp 𝕄) = iprop(
      (((c.tc : Thread nD τ).loc main_v0) ↦{fullShare} W (Proc.devRef .tc main_v0))
      ∗ (((c.tc : Thread nD τ).loc main_cst) ↦{fullShare} W (Proc.devRef .tc main_cst))
      ∗ (((c.tc : Thread nD τ).loc main_v1) ↦{fullShare} W (Proc.devRef .tc main_v1))
      ∗ (((c.tc : Thread nD τ).loc main_cst_0) ↦{fullShare} W (Proc.devRef .tc main_cst_0))
      ∗ (((c.tc : Thread nD τ).loc main_v2) ↦{fullShare} W (Proc.devRef .tc main_v2))) := by
  unfold StableHlo.held tailSet
  rw [bigSep_map, bigSep_eq_bigSepL tailList (by decide)]
  rfl

/-- Every operation of the tail stays within that set, -/
theorem hostOps1_within : ∀ ops ∈ [(hostOps1 : List (HloOp τ sig (Elt F)))], ∀ op ∈ ops, op.bufs ⊆ tailSet := by
  intro ops hops op hop
  obtain rfl := List.mem_singleton.mp hops
  simp only [List.mem_cons, List.mem_nil_iff, or_false] at hop
  rcases hop with rfl | rfl | rfl | rfl
  · rw [StableHlo.nullary_bufs]
    exact Finset.singleton_subset_iff.mpr (mem_tailSet (by decide))
  · rw [StableHlo.binary_bufs]
    simp only [Finset.insert_subset_iff, Finset.singleton_subset_iff]
    exact ⟨mem_tailSet (by decide), mem_tailSet (by decide), mem_tailSet (by decide)⟩
  · rw [StableHlo.nullary_bufs]
    exact Finset.singleton_subset_iff.mpr (mem_tailSet (by decide))
  · rw [StableHlo.binary_bufs]
    simp only [Finset.insert_subset_iff, Finset.singleton_subset_iff]
    exact ⟨mem_tailSet (by decide), mem_tailSet (by decide), mem_tailSet (by decide)⟩

/-- and none allocates. -/
theorem hostOps1_fresh : ∀ ops ∈ [(hostOps1 : List (HloOp τ sig (Elt F)))], ∀ op ∈ ops, op.fresh = ∅ := by
  intro ops hops op hop
  obtain rfl := List.mem_singleton.mp hops
  simp only [List.mem_cons, List.mem_nil_iff, or_false] at hop
  rcases hop with rfl | rfl | rfl | rfl <;> rfl

/-- After the tail the result buffer holds the tail's function of the region's result array, -/
theorem after_v2 (W : Valuation τ sig (Elt F)) :
    StableHlo.after hostOps1 W (Proc.devRef .tc main_v2) = tailVal (W (Proc.devRef .tc main_v0)) := by
  after_results
  rfl

/-- which the tail leaves as it found it. -/
theorem after_v0 (W : Valuation τ sig (Elt F)) :
    StableHlo.after hostOps1 W (Proc.devRef .tc main_v0) = W (Proc.devRef .tc main_v0) := by
  after_results

/-- The device's buffers at the region's exit, as far as the tail reads them: the result array at the region's output `o`,
    every other buffer as launched. -/
def exitVal (c : Dev nD) (o : (⟨S8192, .f32⟩ : BufTy).Contents (Elt F)) : Valuation τ sig (Elt F) :=
  open Classical in Function.update (fun b => m (c, b)) (Proc.devRef .tc main_v0) o

theorem exitVal_v0 (c : Dev nD) (o : (⟨S8192, .f32⟩ : BufTy).Contents (Elt F)) : exitVal m c o (Proc.devRef .tc main_v0) = o := by
  unfold exitVal; exact Function.update_self ..

theorem exitVal_ne (c : Dev nD) (o : (⟨S8192, .f32⟩ : BufTy).Contents (Elt F)) {r : Ref sig .tc} (h : r ≠ main_v0) :
    exitVal m c o (Proc.devRef .tc r) = m ((c.tc : Thread nD τ).loc r) := by
  unfold exitVal; exact Function.update_of_ne (StableHlo.devRef_ne_of_ne h) ..

/-! ## The run -/

/-- THE RUN, for any proof data of the region that deal the shares as `qShare`, start from the launch memory, owe nothing,
    and whose invariant is entered from and returns to the class invariant: every weakly fair execution of @main
    terminates without a fault, both argument arrays end as launched, and the result is the tail's function of the
    region's output array as the library computes it from the proof data. -/
theorem run_main_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qShare w)
    (howed : ∀ c t, (dats 0 c).owed t = 0)
    (hA : ∀ c w, (dats 0 c).A w = m ((c.tc : Thread nD τ).loc (Pipeline.arrRef spec0 w)))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v2) = tailVal ((dats 0 c).arrAt 4 cfg0.N)) := by
  classical
  -- The region is launched with no semaphore of the kernel's own and no prefetched table; what follows it is the one
  -- line of four host operations. The generator register goes into the invariant (`X`, `Y`), the four unscoped buffers
  -- that are no window's array wait beside the region (`Z`) for the tail, which leaves the result's buffer at the
  -- tail's value of the region's output (`Z'`).
  refine Pipeline.θ_run_region_pf_tail (fun p => (cfgs p).toPCfg) (fun p => (cfgs p).toPCfg_adm) dats () cellOf_inj 0 winFacts₀0
    (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := ?hu) (V := fun c b => m ((c.tc : Thread nD τ).loc b)) (hmain := ?hmain) (hsplit := ?hsplit) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (fun b => m ((c.tc : Thread nD τ).loc b)))
    (Z' := fun c => (((c.tc : Thread nD τ).loc main_v2) ↦{fullShare} tailVal ((dats 0 c).arrAt 4 cfg0.N)))
    (hX := ?hX) (hin := ?hin) (hout := ?hout) (htail := ?htail)
    (QY := fun c s => s.mem ((c.tc : Thread nD τ).loc main_v2) = tailVal ((dats 0 c).arrAt 4 cfg0.N)) (hY := ?hY) (hQ := ?hQ)
  case hu =>
    -- the launch element is the pipeline's cells and nothing else
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hmain =>
    -- @main is the region, entered at the launch contents, continued by the line of four operations
    exact Pipeline.hmain_around cfgs 0 defs₀ Variants.none m main [] [hostOps1] (by trivial) (by trivial) (fun c => by rw [main_chain]; rfl)
  case hsplit =>
    -- the three distinct buffers behind the five windows: each argument array's full share is its left half, for the
    -- row-block window, and its right half, for the column-block window; the result array goes whole to its window
    intro c
    rw [arrays_eq_chain c (dats 0 c) (hq c)]
    have hL : (Pipeline.arrBufs (Ix := Unit) (Name := ℕ) (U := UR sig nD τ) (Lvl := ℕ) spec0 c (fun b => m ((c.tc : Thread nD τ).loc b)) : sProp 𝕄)
        = iprop((((c.tc : Thread nD τ).loc main_arg0) ↦{fullShare} m ((c.tc : Thread nD τ).loc main_arg0))
            ∗ (((c.tc : Thread nD τ).loc main_arg1) ↦{fullShare} m ((c.tc : Thread nD τ).loc main_arg1))
            ∗ (((c.tc : Thread nD τ).loc main_v0) ↦{fullShare} m ((c.tc : Thread nD τ).loc main_v0))) := by
      unfold Pipeline.arrBufs
      exact bigSep_eq_bigSepL_of_eq [main_arg0, main_arg1, main_v0] (by decide) (by decide) _
    refine (Entails.of_eq hL).trans ?_
    have e : ∀ w, (dats 0 c).arrAt w 0 = m ((c.tc : Thread nD τ).loc (Pipeline.arrRef spec0 w)) := fun w => hA c w
    rw [e 0, e 1, e 2, e 3, e 4]
    iintro ⟨H0, H1, H2⟩
    ihave H0' := (pointsTo_share (PosShare.mem_left_op_right fullShare)).1 $$ H0
    icases H0' with ⟨H0l, H0r⟩
    ihave H1' := (pointsTo_share (PosShare.mem_left_op_right fullShare)).1 $$ H1
    icases H1' with ⟨H1l, H1r⟩
    isplitl [H0l]; · iexact H0l
    isplitl [H1l]; · iexact H1l
    isplitl [H0r]; · iexact H0r
    isplitl [H1r]; · iexact H1r
    iexact H2
  case hX =>
    -- the generator register, at whatever state, is the invariant's; the bypassing buffers wait for the tail
    intro c
    rw [Pipeline.unscopedRestP_none]
    iintro ⟨HU, -, -, -, Hp, -⟩; imodintro
    isplitl [Hp]; · iexists _; iexact Hp
    iexact HU
  case hin =>
    -- the scoped rest and the generator register are the class invariant, from which the data's invariant is entered
    intro c
    exact (show _ ⊢ Pipeline.ΦA spec0 c from by
      unfold Pipeline.ΦA; iintro ⟨Hp, -, Hr⟩
      isplitl [Hr] <;> iassumption).trans (hin c)
  case hout =>
    -- and to which it returns after the last point
    intro c
    refine (hout c).trans ?_
    rw [Pipeline.ownSems0_none]; unfold Pipeline.ΦA
    iintro ⟨Hr, Hp⟩
    isplitl [Hp]; · iexact Hp
    isplitr; · iempintro
    iexact Hr
  case htail =>
    -- the four operations run within the result array, held whole by its window, and their own four buffers; the
    -- argument arrays' halves stand beside untouched. At the end the result array is as the region left it and the
    -- last operation's buffer holds the scaled sum of it.
    intro c Q'
    have hrun := Pipeline.wp_seqs_then (Ix := Unit) (Name := ℕ) (U := UR sig nD τ) (Lvl := ℕ) (fun p => (cfgs p).toPCfg) defs₀ Variants.none c tailSet []
      (K := Q') [hostOps1] hostOps1_within hostOps1_fresh (exitVal m c ((dats 0 c).arrAt 4 cfg0.N))
    rw [Pipeline.chain_nil, wp_pure, List.append_nil, held_tailSet, held_tailSet, List.flatten_cons, List.flatten_nil, List.append_nil,
      after_v0, after_v2, exitVal_v0, exitVal_ne m c _ (by decide : main_cst ≠ main_v0), exitVal_ne m c _ (by decide : main_v1 ≠ main_v0),
      exitVal_ne m c _ (by decide : main_cst_0 ≠ main_v0), exitVal_ne m c _ (by decide : main_v2 ≠ main_v0)] at hrun
    rw [arrays_eq_chain c (dats 0 c) (hq c), unscopedRest0_eq]
    iintro ⟨Hk, Hb, ⟨H0, H1, H2, H3, H4⟩, Hc, Hv1, Hc0, Hv2⟩
    iapply hrun $$ [Hb H4 Hc Hv1 Hc0 Hv2]
    · isplitl [Hb]; · iexact Hb
      isplitl [H4]; · iexact H4
      isplitl [Hc]; · iexact Hc
      isplitl [Hv1]; · iexact Hv1
      isplitl [Hc0]; · iexact Hc0
      iexact Hv2
    iintro ⟨Hb, H4, -, -, -, Hv2⟩
    imodintro
    iapply Hk
    isplitr [Hv2]
    · isplitl [H0]; · iexact H0
      isplitl [H1]; · iexact H1
      isplitl [H2]; · iexact H2
      isplitl [H3]; · iexact H3
      iexact H4
    iexact Hv2
  case hY =>
    -- the result's buffer, held whole, is what the final memory holds there
    intro c s'
    iintro ⟨-, HZ, HSI⟩
    icombine HSI HZ gives %h
    imodintro
    isplitr; · ipureintro; exact Buf.eq_of_forall_mem_univ h
    iexact HSI
  case hQ =>
    -- an input window's array is never written: each argument array ends at its entry contents, the launch contents
    intro s h c
    refine ⟨?_, ?_, (h c).2.2⟩
    · exact ((h c).1 0).trans (((dats 0 c).arrAt_in 0 rfl _).trans (hA c 0))
    · exact ((h c).1 1).trans (((dats 0 c).arrAt_in 1 rfl _).trans (hA c 1))

end Cert.KernelIdeal.Hand

end
-- ==== Proof.KernelIdealPieces.lean ====
/-
  What the three runs leave, as the body's arithmetic. The pieces each run found are whole-block stores, so the
  accumulator (and, at the last column block, the output block) reads back as the last store's payload: the block's
  row sums added to what the accumulator held — to zeros at the first column block of a row.
-/
import proofs.«100222_j65532611002859_1_alg».proof.Proof.KernelIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores' rectangle starts at the block's origin. -/
theorem hz512 : (![0] : Fin S512.rank → Nat) = fun _ => 0 := by funext a; fin_cases a; rfl

/-- A middle column block leaves the accumulator at its old contents plus the block's row sums. -/
theorem accMid_eq (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : ¬condLast i) (x0 x1 x2 x3 xs : Vec F S512 .f32) :
    accMid c i arg2 harg2 arg3 harg3 arg4 harg4 arg5 harg5 arg6 harg6 arg7 harg7 hc0 hc1 x0 x1 x2 x3 xs = k0_pay2 x0 x1 x2 x3 xs := by
  unfold accMid
  rw [View.read_writes_eq_canon _ _ _ (coverMid c i arg2 harg2 arg3 harg3 arg4 harg4 arg5 harg5 arg6 harg6 arg7 harg7 hc0 hc1 x0 x1 x2 x3 xs)]
  unfold runMid
  dsimp only
  sl_unfold_words
  rw [View.canon_unit_zero (S := S512) hz512]
  simp only [View.readAt_eq_ld, harg2.read_unread, harg3.read_unread, harg4.read_unread, harg5.read_unread, harg7.read_unread, View.ld_unit_zero (S := S512) hz512]

/-- The first column block leaves the accumulator at zeros plus the block's row sums. -/
theorem accFirst_eq (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : condFirst i) (hc1 : ¬condLast i) (x0 x1 x2 x3 : Vec F S512 .f32) :
    accFirst c i arg2 harg2 arg3 harg3 arg4 harg4 arg5 harg5 arg6 harg6 arg7 harg7 hc0 hc1 x0 x1 x2 x3 = k0_pay2 x0 x1 x2 x3 (k0_pay1 (F := F)) := by
  unfold accFirst
  rw [View.read_writes_eq_canon _ _ _ (coverFirst c i arg2 harg2 arg3 harg3 arg4 harg4 arg5 harg5 arg6 harg6 arg7 harg7 hc0 hc1 x0 x1 x2 x3)]
  unfold runFirst
  dsimp only
  sl_unfold_words
  rw [View.canon_cons_unit_zero (S := S512) hz512, View.readCov_unit_zero (S := S512) _ hz512]
  simp only [View.readAt_eq_ld, harg2.read_unread, harg3.read_unread, harg4.read_unread, harg5.read_unread, harg7.read_unread, View.ld_unit_zero (S := S512) hz512]

/-- The last column block leaves the accumulator at its old contents plus the block's row sums, -/
theorem accLast_eq (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) :
    accLast c i arg2 harg2 arg3 harg3 arg4 harg4 arg5 harg5 arg6 harg6 arg7 harg7 hc0 hc1 x0 x1 x2 x3 xs = k0_pay2 x0 x1 x2 x3 xs := by
  unfold accLast
  rw [View.read_writes_eq_canon _ _ _ (coverLastS c i arg2 harg2 arg3 harg3 arg4 harg4 arg5 harg5 arg6 harg6 arg7 harg7 hc0 hc1 x0 x1 x2 x3 xs)]
  unfold runLast
  dsimp only
  sl_unfold_words
  rw [View.canon_unit_zero (S := S512) hz512]
  simp only [View.readAt_eq_ld, harg2.read_unread, harg3.read_unread, harg4.read_unread, harg5.read_unread, harg7.read_unread, View.ld_unit_zero (S := S512) hz512]

/-- and the output block at the same. -/
theorem outLast_eq (c : Dev nD) (i : grid0.Coords) (arg2 : Memref sig .tc .vmem S512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (hc0 : ¬condFirst i) (hc1 : condLast i) (x0 x1 x2 x3 xs : Vec F S512 .f32) :
    outLast c i arg2 harg2 arg3 harg3 arg4 harg4 arg5 harg5 arg6 harg6 arg7 harg7 hc0 hc1 x0 x1 x2 x3 xs = k0_pay2 x0 x1 x2 x3 xs := by
  unfold outLast
  rw [View.read_writes_eq_canon _ _ _ (coverLastO c i arg2 harg2 arg3 harg3 arg4 harg4 arg5 harg5 arg6 harg6 arg7 harg7 hc0 hc1 x0 x1 x2 x3 xs)]
  unfold runLast
  dsimp only
  sl_unfold_words
  rw [View.canon_unit_zero (S := S512) hz512, View.readCov_unit_zero (S := S512) _ hz512]
  simp only [View.readAt_eq_ld, harg2.read_unread, harg3.read_unread, harg4.read_unread, harg5.read_unread, harg7.read_unread, View.ld_unit_zero (S := S512) hz512]

end Cert.KernelIdeal.Hand

end
-- ==== Proof.Spec.lean ====
/-
  The pairwise hinge ranking loss over the extended reals, as ONE function of the two argument arrays.
  For scores `x` and targets `t` of length 8192, each ordered pair `(i, j)` with `t j > t i` contributes
  `max (m - (x j - x i)) 0`, every other pair contributes `0`; the loss is the constant `2⁻²⁵` times the sum of all
  contributions, the sum starting from the zero word as both programs start theirs.
-/
import Idealize.ShloMosaic.PureOps.Ideal
import Idealize.ShloMosaic.Lib.ValueIdx

noncomputable section

namespace Cert.Hinge

open Idealize.ShloMosaic

/-- Vectors of length 8192. -/
abbrev S8192 : Shape := ⟨1, ![8192]⟩

/-- The margin `m`, the zero word and the final scale, each the exact value of its binary word. -/
def margin : Ideal .f32 := Ideal.ofBits .f32 0x3C23D70A#32
def zero : Ideal .f32 := Ideal.ofBits .f32 0x00000000#32
def scale : Ideal .f32 := Ideal.ofBits .f32 0x33000000#32

/-- The contribution of the ordered pair `(i, j)`: the hinge of the score difference where `t j > t i`, zero elsewhere. -/
def pair (x t : S8192.Idx → Ideal .f32) (i j : S8192.Idx) : Ideal .f32 :=
  Scalar.select (FloatOps.cmpf (F := Ideal) .ogt (t j) (t i)) (max (margin - (x j - x i)) zero) zero

/-- The loss: the scale times the sum, from the zero word, of every ordered pair's contribution. -/
def loss (x t : S8192.Idx → Ideal .f32) : Ideal .f32 :=
  scale * (zero + ∑ i : S8192.Idx, ∑ j : S8192.Idx, pair x t i j)

end Cert.Hinge

end
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelIdealPayload.lean ====
/-
  The body's arithmetic read at a row, over the extended reals. The store's payload at row `r` of the block is the
  accumulator's old value there plus the sum, over the block's 512 columns `j`, of the pair's contribution: the hinge
  `max (m - (x₂ j - x₀ r)) 0` of the column block's score against the row block's score where the column's target
  exceeds the row's, zero elsewhere (`x₀, x₁` the row blocks of scores and targets, `x₂, x₃` the column blocks).
-/
import proofs.«100222_j65532611002859_1_alg».proof.Proof.Gen.KernelIdeal.Skeleton
import proofs.«100222_j65532611002859_1_alg».proof.Proof.Spec
import proofs.«100222_j65532611002859_1_alg».proof.Proof.LibKeepdims
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx Cert.LibKeepdims

/-- The contribution of row `r` of the row blocks against column `j` of the column blocks. -/
def blkPair (x0 x1 x2 x3 : FVec Ideal S512 .f32) (r j : Fin 512) : Ideal .f32 :=
  Scalar.select (FloatOps.cmpf (F := Ideal) .ogt (x3 (ix1 j)) (x1 (ix1 r)))
    (max (Cert.Hinge.margin - (x2 (ix1 j) - x0 (ix1 r))) Cert.Hinge.zero) Cert.Hinge.zero

/-- The reset store writes the zero word at every row. -/
theorem pay1_apply (r : Fin 512) : (k0_pay1 (F := Ideal)) (ix1 r) = Cert.Hinge.zero := by
  unfold k0_pay1
  refine (congrFun (shapeCast_self _ _) (ix1 r)).trans ?_
  rfl

/-- The sum over the block's columns, at row `r`. -/
theorem rowSum_apply (v : FVec Ideal S512x512 .f32) (hacc : (0x00000000#32 : BitVec 32) = 0x00000000#32) (r : Fin 512) :
    multiReduction .add [1] S512 v 0x00000000#32 reduces_S512x512_S512 (.inl rfl) hacc (ix1 r) = ∑ j : Fin 512, v (ix2 r j) := by
  refine (Ideal.multiReduction_add_single v 0x00000000#32 reduces_S512x512_S512 (.inl rfl) hacc (ix1 r)).trans ?_
  refine Finset.sum_congr rfl fun j _ => congrArg v ?_
  funext a
  match a with
  | ⟨0, _⟩ => rfl
  | ⟨1, _⟩ => rfl

/-- The accumulating store's payload at row `r`. -/
theorem pay2_apply (x0 x1 x2 x3 v24 : FVec Ideal S512 .f32) (r : Fin 512) :
    k0_pay2 (F := Ideal) x0 x1 x2 x3 v24 (ix1 r) = v24 (ix1 r) + ∑ j : Fin 512, blkPair x0 x1 x2 x3 r j := by
  unfold k0_pay2
  refine (congrFun (shapeCast_self _ _) (ix1 r)).trans ?_
  refine (addf_apply _ _ (ix1 r)).trans ?_
  refine congrArg (v24 (ix1 r) + ·) ?_
  refine (rowSum_apply _ rfl r).trans ?_
  refine Finset.sum_congr rfl fun j _ => ?_
  unfold blkPair
  rw [select_apply, cmpf_apply, maximumf_apply, subf_apply, subf_apply,
    broadcastTo_1b_ab_apply, shapeCast_a_1a_apply, broadcastTo_a1_ab_apply, shapeCast_a_a1_apply,
    broadcastTo_1b_ab_apply, shapeCast_a_1a_apply, broadcastTo_a1_ab_apply, shapeCast_a_a1_apply]
  rfl

end Cert.KernelIdeal.Hand

end
-- ==== Proof.Bridge.lean ====
/-
  The loss accumulated block by block is the loss.
  The pair space 8192 x 8192 is cut into 16 x 16 blocks of 512 x 512. For a row block `g` and a row `r` of it, the
  running total after column blocks `0 … k` starts from the zero word plus block `(g, 0)`'s row sum and adds block
  `(g, k)`'s row sum at each further column block. If a vector holds, at row `512 g + r`, the running total after all
  sixteen column blocks, then the scale times its sum from the zero word is the loss: addition of extended reals is
  commutative and associative and the zero word is `0`, so the grouping of the sum does not matter.
-/
import proofs.«100222_j65532611002859_1_alg».proof.Proof.Spec
import Idealize.ShloMosaic.PureOps.Ideal.Laws
import Idealize.ShloMosaic.Lib.ValueIdxRank1

noncomputable section

open scoped BigOperators

namespace Cert.Hinge

open Idealize.ShloMosaic Idealize.ShloMosaic.ValueIdx

/-- The row index `512 g + r` and the column index `512 k + j` of the pair space. -/
def rowIx (g : Fin 16) (r : Fin 512) : S8192.Idx := ix1 (⟨512 * g.val + r.val, by omega⟩ : Fin 8192)

/-- Row `r` of block `(g, k)`: the sum of the block's 512 contributions in that row. -/
def blockRow (x t : S8192.Idx → Ideal .f32) (g k : Fin 16) (r : Fin 512) : Ideal .f32 :=
  ∑ j : Fin 512, pair x t (rowIx g r) (rowIx k j)

/-- The running total of row `512 g + r` after column blocks `0 … k`. -/
def accUpTo (x t : S8192.Idx → Ideal .f32) (g : Fin 16) : (k : ℕ) → k < 16 → Fin 512 → Ideal .f32
  | 0, h => fun r => zero + blockRow x t g ⟨0, h⟩ r
  | k + 1, h => fun r => accUpTo x t g k (by omega) r + blockRow x t g ⟨k + 1, h⟩ r

/-! ## The zero word -/

/-- The zero word is the extended real `0`. -/
theorem zero_eq : zero = (0 : Ideal .f32) := Ideal.ofBits_zero_f32

/-! ## The running total is the sum over the column blocks so far -/

/-- After column blocks `0 … k` the running total is the sum of those blocks' row sums: the start adds the neutral
    element, and each further step appends the next block's row sum to the sum so far. -/
theorem accUpTo_eq (x t : S8192.Idx → Ideal .f32) (g : Fin 16) (r : Fin 512) : ∀ (k : ℕ) (h : k < 16),
    accUpTo x t g k h r = ∑ m : Fin (k + 1), blockRow x t g ⟨m.val, by omega⟩ r
  | 0, h => by
      show zero + blockRow x t g ⟨0, h⟩ r = _
      rw [zero_eq, zero_add, Fin.sum_univ_one]
      rfl
  | k + 1, h => by
      show accUpTo x t g k (by omega) r + blockRow x t g ⟨k + 1, h⟩ r = _
      rw [accUpTo_eq x t g r k (by omega)]
      exact (Fin.sum_univ_castSucc (fun m : Fin (k + 1 + 1) => blockRow x t g ⟨m.val, by omega⟩ r)).symm

/-- After all sixteen column blocks the running total is the sum of the row's sixteen block sums. -/
theorem accUpTo_all (x t : S8192.Idx → Ideal .f32) (g : Fin 16) (r : Fin 512) (h : 15 < 16) :
    accUpTo x t g 15 h r = ∑ k : Fin 16, blockRow x t g k r :=
  accUpTo_eq x t g r 15 h

/-! ## A sum over the vector's indices, block by block -/

/-- A coordinate below 8192 is `512 g + r` for exactly one block `g < 16` and offset `r < 512`: quotient and remainder
    by 512. -/
def blockEquiv : Fin 16 × Fin 512 ≃ Fin 8192 where
  toFun p := ⟨512 * p.1.val + p.2.val, by omega⟩
  invFun a := (⟨a.val / 512, by omega⟩, ⟨a.val % 512, by omega⟩)
  left_inv p := by
    have h2 := p.2.isLt
    exact Prod.ext (Fin.ext (by show (512 * p.1.val + p.2.val) / 512 = p.1.val; omega))
      (Fin.ext (by show (512 * p.1.val + p.2.val) % 512 = p.2.val; omega))
  right_inv a := Fin.ext (by show 512 * (a.val / 512) + a.val % 512 = a.val; omega)

/-- A sum over a length-8192 vector's indices is the sum over its coordinate range. -/
theorem sum_coord {M : Type*} [AddCommMonoid M] (f : S8192.Idx → M) :
    ∑ i, f i = ∑ a : Fin 8192, f (ix1 a) := by
  rw [← Equiv.sum_comp (idxEquiv1 (n := 8192)).symm f]
  rfl

/-- A sum over the vector's indices is the sum over the sixteen blocks of the sums over each block's 512 rows. -/
theorem sum_rows {M : Type*} [AddCommMonoid M] (f : S8192.Idx → M) :
    ∑ i, f i = ∑ g : Fin 16, ∑ r : Fin 512, f (rowIx g r) := by
  rw [sum_coord, ← Equiv.sum_comp blockEquiv (fun a => f (ix1 a)), Fintype.sum_prod_type]
  rfl

/-- A vector that holds every row's running total after all sixteen column blocks sums, from the zero word and times the
    scale, to the loss. -/
theorem loss_of_blocks (x t : S8192.Idx → Ideal .f32) (out : S8192.Idx → Ideal .f32)
    (hout : ∀ (g : Fin 16) (r : Fin 512), out (rowIx g r) = accUpTo x t g 15 (by omega) r) :
    scale * (zero + ∑ i : S8192.Idx, out i) = loss x t := by
  have hsum : ∑ i : S8192.Idx, out i = ∑ i : S8192.Idx, ∑ j : S8192.Idx, pair x t i j := by
    rw [sum_rows out, sum_rows (fun i => ∑ j : S8192.Idx, pair x t i j)]
    refine Finset.sum_congr rfl fun g _ => Finset.sum_congr rfl fun r _ => ?_
    show out (rowIx g r) = ∑ j : S8192.Idx, pair x t (rowIx g r) j
    rw [hout g r, accUpTo_all, sum_rows (pair x t (rowIx g r))]
    rfl
  unfold loss
  rw [hsum]

end Cert.Hinge

end
-- ==== Proof.KernelIdealBlocks.lean ====
/-
  The region's blocks read at an index. Point `16 g + k` of the grid is row block `g`, column block `k`. There the
  two row windows hold rows `512 g …` of the score and target vectors, the two column windows hold rows `512 k …`;
  and the output array ends holding, at row `512 g + r`, what the body left in the output block at the last column
  block of row block `g`, the only point that writes that block back.
-/
import proofs.«100222_j65532611002859_1_alg».proof.Proof.KernelIdealFrame
import proofs.«100222_j65532611002859_1_alg».proof.Proof.Bridge
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The score and target vectors as launched, and the region's output array after the run, as vectors of length 8192. -/
abbrev xarr (c : Dev nD) : Vec F S8192 .f32 := m ((c.tc : Thread nD τ).loc main_arg0)
abbrev tarr (c : Dev nD) : Vec F S8192 .f32 := m ((c.tc : Thread nD τ).loc main_arg1)
abbrev outArr (c : Dev nD) : Vec F S8192 .f32 := (dats m 0 c).arrAt 4 cfg0.N

/-- The four input blocks at a point, as vectors of length 512. -/
abbrev blk0 (c : Dev nD) (t : Fin cfg0.N) : Vec F S512 .f32 := iblk m c 0 t
abbrev blk1 (c : Dev nD) (t : Fin cfg0.N) : Vec F S512 .f32 := iblk m c 1 t
abbrev blk2 (c : Dev nD) (t : Fin cfg0.N) : Vec F S512 .f32 := iblk m c 2 t
abbrev blk3 (c : Dev nD) (t : Fin cfg0.N) : Vec F S512 .f32 := iblk m c 3 t

/-- The grid point of row block `g`, column block `k`. -/
def pt (g k : Fin 16) : Fin cfg0.N := ⟨16 * g.val + k.val, by rw [show cfg0.N = 256 from N_0]; omega⟩

theorem pt_val (g k : Fin 16) : (pt g k).val = 16 * g.val + k.val := rfl

/-! ## The index maps over the grid -/

/-- The row windows and the output window sit at block `t / 16`; the column windows at block `t % 16`. -/
theorem idx_row0 : ∀ t : Fin cfg0.N, win0_0.index t (0 : Fin 1) = t.val / 16 :=
  (by decide +kernel : ∀ t : Fin grid0.N, win0_0.index t (0 : Fin 1) = t.val / 16)
theorem idx_row1 : ∀ t : Fin cfg0.N, win0_1.index t (0 : Fin 1) = t.val / 16 :=
  (by decide +kernel : ∀ t : Fin grid0.N, win0_1.index t (0 : Fin 1) = t.val / 16)
theorem idx_col2 : ∀ t : Fin cfg0.N, win0_2.index t (0 : Fin 1) = t.val % 16 :=
  (by decide +kernel : ∀ t : Fin grid0.N, win0_2.index t (0 : Fin 1) = t.val % 16)
theorem idx_col3 : ∀ t : Fin cfg0.N, win0_3.index t (0 : Fin 1) = t.val % 16 :=
  (by decide +kernel : ∀ t : Fin grid0.N, win0_3.index t (0 : Fin 1) = t.val % 16)
theorem idx_row4 : ∀ t : Fin cfg0.N, win0_4.index t (0 : Fin 1) = t.val / 16 :=
  (by decide +kernel : ∀ t : Fin grid0.N, win0_4.index t (0 : Fin 1) = t.val / 16)

/-! ## Where a block's row lies in the array -/

/-- Row `r` of a row window's block at point `16 g + k` is row `512 g + r` of the array. -/
theorem emb_row0 (g k : Fin 16) (r : Fin 512) :
    ((cfg0.win 0).blk (pt g k)).view.emb (ix1 r) = Cert.Hinge.rowIx g r := by
  funext a; apply Fin.ext
  match a with
  | ⟨0, _⟩ =>
    show win0_0.index (pt g k) (0 : Fin 1) * 512 + 1 * r.val = 512 * g.val + r.val
    rw [idx_row0, pt_val]; have := k.isLt; omega

/-- The same for the target vector's row window. -/
theorem emb_row1 (g k : Fin 16) (r : Fin 512) :
    ((cfg0.win 1).blk (pt g k)).view.emb (ix1 r) = Cert.Hinge.rowIx g r := by
  funext a; apply Fin.ext
  match a with
  | ⟨0, _⟩ =>
    show win0_1.index (pt g k) (0 : Fin 1) * 512 + 1 * r.val = 512 * g.val + r.val
    rw [idx_row1, pt_val]; have := k.isLt; omega

/-- Row `j` of a column window's block at point `16 g + k` is row `512 k + j` of the array. -/
theorem emb_col2 (g k : Fin 16) (j : Fin 512) :
    ((cfg0.win 2).blk (pt g k)).view.emb (ix1 j) = Cert.Hinge.rowIx k j := by
  funext a; apply Fin.ext
  match a with
  | ⟨0, _⟩ =>
    show win0_2.index (pt g k) (0 : Fin 1) * 512 + 1 * j.val = 512 * k.val + j.val
    rw [idx_col2, pt_val]; have := k.isLt; omega

/-- The same for the target vector's column window. -/
theorem emb_col3 (g k : Fin 16) (j : Fin 512) :
    ((cfg0.win 3).blk (pt g k)).view.emb (ix1 j) = Cert.Hinge.rowIx k j := by
  funext a; apply Fin.ext
  match a with
  | ⟨0, _⟩ =>
    show win0_3.index (pt g k) (0 : Fin 1) * 512 + 1 * j.val = 512 * k.val + j.val
    rw [idx_col3, pt_val]; have := k.isLt; omega

/-- Row `r` of the output window's block at point `16 g + k` is row `512 g + r` of the output array. -/
theorem emb_row4 (g k : Fin 16) (r : Fin 512) :
    ((cfg0.win 4).blk (pt g k)).view.emb (ix1 r) = Cert.Hinge.rowIx g r := by
  funext a; apply Fin.ext
  match a with
  | ⟨0, _⟩ =>
    show win0_4.index (pt g k) (0 : Fin 1) * 512 + 1 * r.val = 512 * g.val + r.val
    rw [idx_row4, pt_val]; have := k.isLt; omega

/-! ## The output window's blocks -/

/-- An index of the output array is in point `t`'s block iff its coordinate is in the block's range. -/
theorem mem_blk4 (t : Fin cfg0.N) (i : S8192.Idx) :
    i ∈ ((cfg0.win 4).blk t).view.set ↔ ∀ a : Fin 1, win0_4.index t a * S512.size a ≤ (i a).val ∧ (i a).val < win0_4.index t a * S512.size a + S512.size a := by
  show i ∈ ((View.whole main_v0).slice (win0_4.rect t)).set ↔ _
  rw [View.set_slice_whole, Rect.mem_set_unit]
  exact Iff.rfl

/-- Two different points that write the output block back write different blocks: both are last column blocks, so
    they differ in the row block. -/
theorem out_disjoint (t t' : Fin cfg0.N) (hf : (cfg0.win 4).flush t = true) (hf' : (cfg0.win 4).flush t' = true) (hne : t ≠ t') :
    Disjoint ((cfg0.win 4).blk t).view.set ((cfg0.win 4).blk t').view.set := by
  rw [Finset.disjoint_left]
  intro i hi hi'
  rw [mem_blk4] at hi hi'
  have b : win0_4.index t (0 : Fin 1) * 512 ≤ (i 0).val ∧ (i 0).val < win0_4.index t (0 : Fin 1) * 512 + 512 := hi 0
  have b' : win0_4.index t' (0 : Fin 1) * 512 ≤ (i 0).val ∧ (i 0).val < win0_4.index t' (0 : Fin 1) * 512 + 512 := hi' 0
  rw [idx_row4] at b b'
  have h15 := (flush0_4 t).mp hf
  have h15' := (flush0_4 t').mp hf'
  exact hne (Fin.ext (by omega))

/-- The row windows read rows `512 g + r`; the column windows read rows `512 k + j`. -/
theorem blk0_apply (c : Dev nD) (g k : Fin 16) (r : Fin 512) : blk0 m c (pt g k) (ix1 r) = xarr m c (Cert.Hinge.rowIx g r) := by
  show m ((c.tc : Thread nD τ).loc main_arg0) (((cfg0.win 0).blk (pt g k)).view.emb (ix1 r)) = m ((c.tc : Thread nD τ).loc main_arg0) (Cert.Hinge.rowIx g r)
  rw [emb_row0]
theorem blk1_apply (c : Dev nD) (g k : Fin 16) (r : Fin 512) : blk1 m c (pt g k) (ix1 r) = tarr m c (Cert.Hinge.rowIx g r) := by
  show m ((c.tc : Thread nD τ).loc main_arg1) (((cfg0.win 1).blk (pt g k)).view.emb (ix1 r)) = m ((c.tc : Thread nD τ).loc main_arg1) (Cert.Hinge.rowIx g r)
  rw [emb_row1]
theorem blk2_apply (c : Dev nD) (g k : Fin 16) (j : Fin 512) : blk2 m c (pt g k) (ix1 j) = xarr m c (Cert.Hinge.rowIx k j) := by
  show m ((c.tc : Thread nD τ).loc main_arg0) (((cfg0.win 2).blk (pt g k)).view.emb (ix1 j)) = m ((c.tc : Thread nD τ).loc main_arg0) (Cert.Hinge.rowIx k j)
  rw [emb_col2]
theorem blk3_apply (c : Dev nD) (g k : Fin 16) (j : Fin 512) : blk3 m c (pt g k) (ix1 j) = tarr m c (Cert.Hinge.rowIx k j) := by
  show m ((c.tc : Thread nD τ).loc main_arg1) (((cfg0.win 3).blk (pt g k)).view.emb (ix1 j)) = m ((c.tc : Thread nD τ).loc main_arg1) (Cert.Hinge.rowIx k j)
  rw [emb_col3]

/-- The output array at row `512 g + r` is the output block's row `r` as the body left it at point `16 g + 15`. -/
theorem out_apply (c : Dev nD) (g : Fin 16) (r : Fin 512) :
    outArr m c (Cert.Hinge.rowIx g r) = outAt m c (pt g 15) (ix1 r) := by
  have hf : (cfg0.win 4).flush (pt g 15) = true :=
    (flush0_4 _).mpr (by rw [pt_val]; show (16 * g.val + 15) % 16 = 15; omega)
  have h := Dat.arrAt_emb_eq_flushed (dats m 0 c) 4 out_disjoint (pt g 15) hf (ix1 r)
  rw [emb_row4] at h
  refine h.trans ?_
  show (cfg0.win 4).cut (grid0.coords (pt g 15)) ((dats m 0 c).after 4 (pt g 15)) (ix1 r) = _
  rw [after4]
  rfl

end Cert.KernelIdeal.Hand

end
-- ==== Proof.KernelIdealValue.lean ====
/-
  The kernel program's result over the extended reals is the loss of its two arguments.
  At point `16 g + k` the accumulator's row `r` holds the running total of row `512 g + r` of the pair space after
  column blocks `0 … k` (induction on `k`: the first column block starts from the zero word, each later one adds its
  row sum); the output array's row `512 g + r` is the total after all sixteen; and the host's sum of the output array
  from the zero word, times the scale, is the loss.
-/
import proofs.«100222_j65532611002859_1_alg».proof.Proof.KernelIdealPieces
import proofs.«100222_j65532611002859_1_alg».proof.Proof.KernelIdealPayload
import proofs.«100222_j65532611002859_1_alg».proof.Proof.KernelIdealBlocks
import proofs.«100222_j65532611002859_1_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- Point `16 g + k`'s position. -/
theorem pt_mk_val (g : Fin 16) (k : ℕ) (hk : k < 16) : (pt g ⟨k, hk⟩).val = 16 * g.val + k := rfl

/-- The accumulator's contents do not depend on how the position is written. -/
theorem accAt_congr (c : Dev nD) {n n' : ℕ} (e : n = n') (h : n < cfg0.N) (h' : n' < cfg0.N) :
    accAt m c n h = accAt m c n' h' := by subst e; rfl

/-- At point `16 g + k` the blocks' contribution of (row `r`, column `j`) is the pair `(512 g + r, 512 k + j)`'s. -/
theorem blkPair_pt (c : Dev nD) (g k : Fin 16) (r j : Fin 512) :
    blkPair (blk0 m c (pt g k)) (blk1 m c (pt g k)) (blk2 m c (pt g k)) (blk3 m c (pt g k)) r j
      = Cert.Hinge.pair (xarr m c) (tarr m c) (Cert.Hinge.rowIx g r) (Cert.Hinge.rowIx k j) := by
  unfold blkPair Cert.Hinge.pair
  rw [blk0_apply, blk1_apply, blk2_apply, blk3_apply]

/-- So the blocks' row sum at that point is the pair space's block `(g, k)` row sum. -/
theorem rowSum_pt (c : Dev nD) (g k : Fin 16) (r : Fin 512) :
    ∑ j : Fin 512, blkPair (blk0 m c (pt g k)) (blk1 m c (pt g k)) (blk2 m c (pt g k)) (blk3 m c (pt g k)) r j
      = Cert.Hinge.blockRow (xarr m c) (tarr m c) g k r :=
  Finset.sum_congr rfl fun j _ => blkPair_pt m c g k r j

/-- THE RUNNING TOTAL: after point `16 g + k` the accumulator's row `r` is row `512 g + r`'s total over column blocks `0 … k`. -/
theorem accAt_pt (c : Dev nD) (g : Fin 16) : ∀ (k : ℕ) (hk : k < 16) (r : Fin 512),
    accAt m c (pt g ⟨k, hk⟩).val (pt g ⟨k, hk⟩).isLt (ix1 r) = Cert.Hinge.accUpTo (xarr m c) (tarr m c) g k hk r
  | 0, hk, r => by
    have h0 : (pt g ⟨0, hk⟩).val % 16 = 0 := by rw [pt_mk_val]; omega
    have h1 : ¬(pt g ⟨0, hk⟩).val % 16 = 15 := by rw [pt_mk_val]; omega
    rw [accAt_first m c (pt g ⟨0, hk⟩) h0 h1, accFirst_eq]
    refine (pay2_apply (blk0 m c (pt g ⟨0, hk⟩)) (blk1 m c (pt g ⟨0, hk⟩)) (blk2 m c (pt g ⟨0, hk⟩)) (blk3 m c (pt g ⟨0, hk⟩)) (k0_pay1 (F := Ideal)) r).trans ?_
    rw [pay1_apply, rowSum_pt]
    rfl
  | k + 1, hk, r => by
    have h0 : ¬(pt g ⟨k + 1, hk⟩).val % 16 = 0 := by rw [pt_mk_val]; omega
    have hprev : accAt m c ((pt g ⟨k + 1, hk⟩).val - 1) (Nat.lt_of_le_of_lt (Nat.sub_le _ _) (pt g ⟨k + 1, hk⟩).isLt)
        = accAt m c (pt g ⟨k, by omega⟩).val (pt g ⟨k, by omega⟩).isLt :=
      accAt_congr m c (by rw [pt_mk_val, pt_mk_val]; omega) _ _
    by_cases h1 : (pt g ⟨k + 1, hk⟩).val % 16 = 15
    · rw [accAt_last m c (pt g ⟨k + 1, hk⟩) h0 h1, accLast_eq, hprev]
      refine (pay2_apply (blk0 m c (pt g ⟨k + 1, hk⟩)) (blk1 m c (pt g ⟨k + 1, hk⟩)) (blk2 m c (pt g ⟨k + 1, hk⟩)) (blk3 m c (pt g ⟨k + 1, hk⟩)) _ r).trans ?_
      rw [accAt_pt c g k (by omega) r, rowSum_pt]
      rfl
    · rw [accAt_mid m c (pt g ⟨k + 1, hk⟩) h0 h1, accMid_eq, hprev]
      refine (pay2_apply (blk0 m c (pt g ⟨k + 1, hk⟩)) (blk1 m c (pt g ⟨k + 1, hk⟩)) (blk2 m c (pt g ⟨k + 1, hk⟩)) (blk3 m c (pt g ⟨k + 1, hk⟩)) _ r).trans ?_
      rw [accAt_pt c g k (by omega) r, rowSum_pt]
      rfl

/-- The output array's row `512 g + r` is that row's total over all sixteen column blocks. -/
theorem out_row (c : Dev nD) (g : Fin 16) (r : Fin 512) :
    outArr m c (Cert.Hinge.rowIx g r) = Cert.Hinge.accUpTo (xarr m c) (tarr m c) g 15 (by omega) r := by
  have h0 : ¬(pt g 15).val % 16 = 0 := by rw [pt_val]; show ¬(16 * g.val + 15) % 16 = 0; omega
  have h1 : (pt g 15).val % 16 = 15 := by rw [pt_val]; show (16 * g.val + 15) % 16 = 15; omega
  have hprev : accAt m c ((pt g 15).val - 1) (Nat.lt_of_le_of_lt (Nat.sub_le _ _) (pt g 15).isLt)
      = accAt m c (pt g ⟨14, by omega⟩).val (pt g ⟨14, by omega⟩).isLt :=
    accAt_congr m c (by rw [pt_mk_val]; show 16 * g.val + 15 - 1 = 16 * g.val + 14; omega) _ _
  rw [out_apply, outAt_last m c (pt g 15) h0 h1, outLast_eq, hprev]
  refine (pay2_apply (blk0 m c (pt g 15)) (blk1 m c (pt g 15)) (blk2 m c (pt g 15)) (blk3 m c (pt g 15)) _ r).trans ?_
  rw [accAt_pt m c g 14 (by omega) r, rowSum_pt]
  rfl

/-- What the host operations after the region compute from an output array, at the ideal instance: the scale times its
    sum from the zero word. -/
theorem tail_apply (o : FVec Ideal S8192 .f32) (i : S_.Idx) :
    mulf (constant (F := Ideal) S_ .f32 0x33000000#32) (Host.reduceAdd (F := Ideal) o (constant (F := Ideal) S_ .f32 0x00000000#32) reducesTo_S8192_S_d0 h_S_) i
      = Cert.Hinge.scale * (Cert.Hinge.zero + ∑ j : S8192.Idx, o j) := by
  refine (mulf_apply _ _ i).trans ?_
  refine congrArg (Cert.Hinge.scale * ·) ?_
  simp only [Host.reduceAdd, Ideal.hostReduceAdd_def]
  exact Ideal.hostReduceAdd_total reducesTo_S8192_S_d0 (fun b => b.elim0) o _ i

/-- THE VALUE: the tail of the region's output array is the loss of the launch memory's two argument arrays. -/
theorem kernel_value (c : Dev nD) (i : S_.Idx) :
    mulf (constant (F := Ideal) S_ .f32 0x33000000#32) (Host.reduceAdd (F := Ideal) (outArr m c) (constant (F := Ideal) S_ .f32 0x00000000#32) reducesTo_S8192_S_d0 h_S_) i
      = Cert.Hinge.loss (xarr m c) (tarr m c) :=
  (tail_apply (outArr m c) i).trans (Cert.Hinge.loss_of_blocks (xarr m c) (tarr m c) (outArr m c) (out_row m c))

end Cert.KernelIdeal.Hand

end
-- ==== Proof.RefValue.lean ====
/-
  The reference program's result over the extended reals is the specification's loss.

  The reference builds two 8192 x 8192 arrays from each argument vector by broadcasting: one constant along the rows
  (its element at the pair (a, b) is the vector's element b) and one constant along the columns (its element at (a, b)
  is the vector's element a). Read at one pair (a, b), the masked hinge array is therefore the specification's
  contribution of the ordered pair: the hinge of x b - x a where t b > t a, zero elsewhere. The single sum over all
  pairs is the double sum over the two coordinates, and a sum over a length-8192 vector's indices is the sum over its
  coordinate range; addition of extended reals is commutative and associative, so nothing about finiteness is used.
-/
import proofs.«100222_j65532611002859_1_alg».proof.Proof.Spec
import proofs.«100222_j65532611002859_1_alg».proof.Proof.Gen.ReferenceIdeal.Read
import Idealize.ShloMosaic.Lib.ValueIdxRank1

noncomputable section

open scoped BigOperators

namespace Cert.Hinge

open Idealize.ShloMosaic Idealize.ShloMosaic.ValueIdx Cert.ReferenceIdeal.Read

/-! ## The composed broadcast indices are the pair's coordinates -/

/-- The targets' row broadcast reads the vector at the pair's second coordinate. -/
theorem tgt_col (a b : Fin 8192) : idx_main_v0 (idx_main_v2 (ix2 a b)) = ix1 b :=
  funext fun d => match d with | ⟨0, _⟩ => rfl

/-- The targets' column broadcast reads the vector at the pair's first coordinate. -/
theorem tgt_row (a b : Fin 8192) : idx_main_v1 (idx_main_v3 (ix2 a b)) = ix1 a :=
  funext fun d => match d with | ⟨0, _⟩ => rfl

/-- The scores' row broadcast reads the vector at the pair's second coordinate. -/
theorem inp_col (a b : Fin 8192) : idx_main_v5 (idx_main_v7 (ix2 a b)) = ix1 b :=
  funext fun d => match d with | ⟨0, _⟩ => rfl

/-- The scores' column broadcast reads the vector at the pair's first coordinate. -/
theorem inp_row (a b : Fin 8192) : idx_main_v6 (idx_main_v8 (ix2 a b)) = ix1 a :=
  funext fun d => match d with | ⟨0, _⟩ => rfl

/-! ## One element of the masked hinge array -/

/-- At the pair `(a, b)` the masked hinge array holds the specification's contribution of that ordered pair. -/
theorem masked_at (x0 x1 : (⟨Cert.ReferenceIdeal.S8192, .f32⟩ : BufTy).Contents (Elt Ideal)) (a b : Fin 8192) :
    val_main_v14 (F := Ideal) x0 x1 (ix2 a b) = pair x0 x1 (ix1 a) (ix1 b) := by
  rw [val_main_v14_apply, val_main_v4_apply, val_main_v2_apply, val_main_v0_apply, tgt_col,
    val_main_v3_apply, val_main_v1_apply, tgt_row,
    val_main_v13_apply, val_main_v11_apply, val_main_v10_apply, val_main_cst_apply,
    val_main_v9_apply, val_main_v7_apply, val_main_v5_apply, inp_col,
    val_main_v8_apply, val_main_v6_apply, inp_row,
    val_main_v12_apply, val_main_cst_0_apply,
    val_main_call0_v1_apply, val_main_call0_v0_apply, val_main_cst_1_apply]
  rfl

/-! ## Sums over a vector's indices -/

/-- A sum over a rank-1 index set is the sum over its coordinate range. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The result -/

/-- The reference's result is the loss of its two arguments. -/
theorem ref_eq (x0 x1 : (⟨Cert.ReferenceIdeal.S8192, .f32⟩ : BufTy).Contents (Elt Ideal)) (i : Cert.ReferenceIdeal.S_.Idx) :
    Cert.ReferenceIdeal.Read.val_main_v16 (F := Ideal) x0 x1 i = Cert.Hinge.loss x0 x1 := by
  rw [val_main_v16_apply, val_main_cst_3_apply, val_main_v15_apply, val_main_cst_2_apply, sum_idx2]
  simp only [masked_at]
  unfold loss
  rw [sum_idx1]
  simp only [sum_idx1, Ideal.mulf_def, Ideal.ofBits_def, scale, zero]

end Cert.Hinge

end
-- ==== Proof.lean ====
/-
  The pairwise hinge ranking loss: the kernel program, its reading over the extended reals and the jnp reference.

  For scores `x` and targets `t` of length 8192 the loss is `2⁻²⁵ · Σ_{i,j : t j > t i} max (m - (x j - x i)) 0`. The
  reference forms the 8192 x 8192 array of contributions and sums it whole. The kernel walks the pair space in 16 x 16
  blocks of 512 x 512, row block by row block: at each block it adds the block's 512 row sums into a scratch accumulator
  (reset at the first column block of a row), copies the accumulator into the output vector at the last column block,
  and the host sums the output vector. Over the extended reals addition is commutative and associative, and the zero
  word is `0`, so the two groupings of the one sum agree; nothing about finiteness of the inputs is used.

  Each argument vector reaches the kernel through two windows (its row block and its column block), which share the
  array's points-to between them by halves. The frames: both kernel programs run to the end with their arguments
  unchanged (the region's launch, with the host operations after it); the reference's frame is its run. The
  idealization rewrote nothing, so `preserves` is trivial.
-/
import proofs.«100222_j65532611002859_1_alg».proof.Defs
import proofs.«100222_j65532611002859_1_alg».proof.Proof.Gen.Kernel
import proofs.«100222_j65532611002859_1_alg».proof.Proof.Gen.KernelIdeal
import proofs.«100222_j65532611002859_1_alg».proof.Proof.Gen.ReferenceIdeal
import proofs.«100222_j65532611002859_1_alg».proof.Proof.Gen.ReferenceIdeal.Run
import proofs.«100222_j65532611002859_1_alg».proof.Proof.Gen.ReferenceIdeal.Read
import proofs.«100222_j65532611002859_1_alg».proof.Proof.Gen.Pre_finite_inputs
import proofs.«100222_j65532611002859_1_alg».proof.Proof.KernelFrame
import proofs.«100222_j65532611002859_1_alg».proof.Proof.KernelLaunch
import proofs.«100222_j65532611002859_1_alg».proof.Proof.KernelIdealFrame
import proofs.«100222_j65532611002859_1_alg».proof.Proof.KernelIdealLaunch
import proofs.«100222_j65532611002859_1_alg».proof.Proof.KernelIdealValue
import proofs.«100222_j65532611002859_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, nothing faulting, its argument arrays unchanged. -/
theorem frame_k : Cert.frame_Kernel := fun m ρ _ =>
  (θ_run Cert.Kernel.defs _ _).mono (fun _ h c => ⟨(h c).1, (h c).2.1⟩)
    (Cert.Kernel.Hand.run_main_of (F := Bits) m ρ (Cert.Kernel.Hand.dats m)
      (fun c => (Cert.Kernel.Hand.body_obligation m c).loose) (fun c w => by fin_cases w <;> rfl) (fun _ _ => rfl)
      (Cert.Kernel.Hand.A_eq m) (Cert.Kernel.Hand.hin m) (Cert.Kernel.Hand.hout m))

/-- The same of the program read over the extended reals. -/
theorem frame_ki : Cert.frame_KernelIdeal := fun m ρ _ =>
  (θ_run Cert.KernelIdeal.defs _ _).mono (fun _ h c => ⟨(h c).1, (h c).2.1⟩)
    (Cert.KernelIdeal.Hand.run_main_of (F := Ideal) m ρ (Cert.KernelIdeal.Hand.dats m)
      (fun c => (Cert.KernelIdeal.Hand.body_obligation m c).loose) (fun c w => by fin_cases w <;> rfl) (fun _ _ => rfl)
      (Cert.KernelIdeal.Hand.A_eq m) (Cert.KernelIdeal.Hand.hin m) (Cert.KernelIdeal.Hand.hout m))

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the loss of those arguments. -/
theorem algebraic : Cert.algebraic_KernelIdeal_ReferenceIdeal := by
  intro m ρ m' ρ' _ hagree
  refine ⟨fun c => fun _ => Cert.Hinge.loss (Cert.KernelIdeal.Hand.xarr m c) (Cert.KernelIdeal.Hand.tarr m c), ?_, ?_⟩
  · refine (θ_run Cert.KernelIdeal.defs _ _).mono (fun _ h c => ⟨?_, (h c).1, (h c).2.1⟩)
      (Cert.KernelIdeal.Hand.run_main_of (F := Ideal) m ρ (Cert.KernelIdeal.Hand.dats m)
        (fun c => (Cert.KernelIdeal.Hand.body_obligation m c).loose) (fun c w => by fin_cases w <;> rfl) (fun _ _ => rfl)
        (Cert.KernelIdeal.Hand.A_eq m) (Cert.KernelIdeal.Hand.hin m) (Cert.KernelIdeal.Hand.hout m))
    rw [(h c).2.2]
    funext i
    exact Cert.KernelIdeal.Hand.kernel_value m c i
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, (hagree c).1, (hagree c).2]
    funext i
    exact Cert.Hinge.ref_eq _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
